-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S400000x2 : Shape := ⟨2, ![400000, 2]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S64 .f32) (main_arg8 : FVec F S128x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : IVec S400000x2 32) (main_arg4 : FVec F S128x64 .f32) (main_arg5 : FVec F S64 .f32) (main_arg6 : FVec F S64x64 .f32) (main_arg7 : FVec F S64 .f32) (main_arg8 : FVec F S128x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S400000x2 : Shape := ⟨2, ![400000, 2]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S400000x1 : Shape := ⟨2, ![400000, 1]⟩
abbrev S400000 : Shape := ⟨1, ![400000]⟩
abbrev S400000x64 : Shape := ⟨2, ![400000, 64]⟩
abbrev S400000x128 : Shape := ⟨2, ![400000, 128]⟩
abbrev S1x1 : Shape := ⟨2, ![1, 1]⟩
abbrev S8000x128 : Shape := ⟨2, ![8000, 128]⟩
abbrev S8000x1 : Shape := ⟨2, ![8000, 1]⟩

abbrev nBuf : Space → Nat
  | .hbm => 114
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S400000x2, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S400000x1, .i32⟩
  | .hbm, ⟨89, _⟩ => ⟨S400000, .i32⟩
  | .hbm, ⟨90, _⟩ => ⟨S_, .i32⟩
  | .hbm, ⟨91, _⟩ => ⟨S400000, .i32⟩
  | .hbm, ⟨92, _⟩ => ⟨S400000, .i1⟩
  | .hbm, ⟨93, _⟩ => ⟨S_, .i32⟩
  | .hbm, ⟨94, _⟩ => ⟨S400000, .i32⟩
  | .hbm, ⟨95, _⟩ => ⟨S400000, .i32⟩
  | .hbm, ⟨96, _⟩ => ⟨S400000, .i32⟩
  | .hbm, ⟨97, _⟩ => ⟨S400000x1, .i32⟩
  | .hbm, ⟨98, _⟩ => ⟨S400000x64, .f32⟩
  | .hbm, ⟨99, _⟩ => ⟨S400000x1, .i32⟩
  | .hbm, ⟨100, _⟩ => ⟨S400000, .i32⟩
  | .hbm, ⟨101, _⟩ => ⟨S_, .i32⟩
  | .hbm, ⟨102, _⟩ => ⟨S400000, .i32⟩
  | .hbm, ⟨103, _⟩ => ⟨S400000, .i1⟩
  | .hbm, ⟨104, _⟩ => ⟨S_, .i32⟩
  | .hbm, ⟨105, _⟩ => ⟨S400000, .i32⟩
  | .hbm, ⟨106, _⟩ => ⟨S400000, .i32⟩
  | .hbm, ⟨107, _⟩ => ⟨S400000, .i32⟩
  | .hbm, ⟨108, _⟩ => ⟨S400000x1, .i32⟩
  | .hbm, ⟨109, _⟩ => ⟨S400000x64, .f32⟩
  | .hbm, ⟨110, _⟩ => ⟨S400000x128, .f32⟩
  | .hbm, ⟨111, _⟩ => ⟨S1x1, .f32⟩
  | .hbm, ⟨112, _⟩ => ⟨S400000x1, .f32⟩
  | .hbm, ⟨113, _⟩ => ⟨S400000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S8000x128, .f32⟩
  | .local _ .vmem, ⟨21, _⟩ => ⟨S8000x128, .f32⟩
  | .local _ .vmem, ⟨22, _⟩ => ⟨S128x1, .f32⟩
  | .local _ .vmem, ⟨23, _⟩ => ⟨S1x1, .f32⟩
  | .local _ .vmem, ⟨24, _⟩ => ⟨S8000x1, .f32⟩
  | .local _ .vmem, ⟨25, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_14 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S8000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  slices_S400000x2_S400000x1_0_0 : S400000x2.Slices ![0, 0] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S400000x2_S400000x1_0_1 : S400000x2.Slices ![0, 1] S400000x1
  concatenates_S400000x64_S400000x64_S400000x128_d1 : Shape.Concatenates [S400000x64, S400000x64] S400000x128 1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S100000x64_S400000x1_S400000x64_1_0_n_n_0_1_164_wf : GatherDims.WF S100000x64 S400000x1 S400000x64 [1] [0] [] [0] [] 1 ![1, 64]
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S400000x128.size a
  hwx4_0 : ∀ i : grid4.Coords, EltTy.bits .f32 = 32 ∨ (Rect.block (s := S400000x128) S8000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x1.size a ≤ S400000x1.size a
  hwx4_3 : ∀ i : grid4.Coords, EltTy.bits .f32 = 32 ∨ (Rect.block (s := S400000x1) S8000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v80) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S8000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S400000x2 : Shape := ⟨2, ![400000, 2]⟩
abbrev S128x64 : Shape := ⟨2, ![128, 64]⟩
abbrev S64 : Shape := ⟨1, ![64]⟩
abbrev S64x64 : Shape := ⟨2, ![64, 64]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S400000x1 : Shape := ⟨2, ![400000, 1]⟩
abbrev S400000 : Shape := ⟨1, ![400000]⟩
abbrev S400000x64 : Shape := ⟨2, ![400000, 64]⟩
abbrev S400000x128 : Shape := ⟨2, ![400000, 128]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S400000x2, .i32⟩
  | 4 => ⟨S128x64, .f32⟩
  | 5 => ⟨S64, .f32⟩
  | 6 => ⟨S64x64, .f32⟩
  | 7 => ⟨S64, .f32⟩
  | 8 => ⟨S128x1, .f32⟩
  | 9 => ⟨S1, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S100000x64, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S400000x1, .i32⟩
  | 116 => ⟨S400000, .i32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x64, .f32⟩
  | 126 => ⟨S400000x1, .i32⟩
  | 127 => ⟨S400000, .i32⟩
  | _ => ⟨S100000x128, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x64, .f32⟩
  | 9 => ⟨S400000x128, .f32⟩
  | 10 => ⟨S400000x1, .f32⟩
  | 11 => ⟨S1x1, .f32⟩
  | 12 => ⟨S400000x1, .f32⟩
  | 13 => ⟨S400000x1, .f32⟩
  | 14 => ⟨S400000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call2_cst : Ref sig .tc := ⟨.hbm, 112, rfl⟩
abbrev main_call2_v0 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_18 : Ref sig .tc := ⟨.hbm, 128, rfl⟩
abbrev main_v92 : Ref sig .tc := ⟨.hbm, 129, rfl⟩
abbrev main_v93 : Ref sig .tc := ⟨.hbm, 130, rfl⟩
abbrev main_c_19 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S400000x2_S400000x1_0_0 : S400000x2.Slices ![0, 0] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S400000x2_S400000x1_0_1 : S400000x2.Slices ![0, 1] S400000x1
  concatenates_S400000x64_S400000x64_S400000x128_d1 : Shape.Concatenates [S400000x64, S400000x64] S400000x128 1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S400000x1_S400000x64_1_0_n_n_0_1_164_wf : GatherDims.WF S100000x64 S400000x1 S400000x64 [1] [0] [] [0] [] 1 ![1, 64]
  dot_S400000x128_S128x1_S400000x1_1_0_0_1_n_n_wf : DotDims.WF S400000x128 S128x1 S400000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def dot_S400000x128_S128x1_S400000x1_1_0_0_1_n_n : DotDims S400000x128 S128x1 S400000x1 where
  lhsContracting := [1]
  rhsContracting := [0]
  lhsNonContracting := [0]
  rhsNonContracting := [1]
  lhsBatch := []
  rhsBatch := []
  wf := dot_S400000x128_S128x1_S400000x1_1_0_0_1_n_n_wf

class Facts : Prop extends Facts₀ where

variable [Facts]
-- ==== Proof.Stages.lean ====
/-
  The three whole-array operations the kernel's five tiled calls stand for, spelt as the reference spells them on the
  host, at the extended reals: a dense product X·W of a [N, K] array of node features with a [K, H] weight
  (contracting axis 1 of X with axis 0 of W), the rectified bias layer max(A + b, 0) with the bias a [1, H] row
  repeated down the N rows, and the linear head E·w + b of a [P, K] array of pair embeddings with a [K, 1] column and
  a [1, 1] bias repeated down the P rows. Each tiled call's output array is one of these of the arrays the call
  finds on entry; this module fixes the spellings so that both sides of the certificate speak of the same terms.
-/
import proofs.«117341_j78013785964684_1_alg».proof.Proof.Gen.ReferenceIdeal
import Idealize.ShloMosaic.PureOps.Ideal

noncomputable section

namespace Cert.Bridge

open Idealize.ShloMosaic
open Cert.ReferenceIdeal (S100000x128 S128x64 S100000x64 S64x64 S1x64 S400000x128 S128x1 S400000x1 S1x1 S_)
open Cert.ReferenceIdeal.Facts₀

/-- Layer 1's dense product: the [100000, 128] features times the [128, 64] weight. -/
def dense1 (x : (⟨S100000x128, .f32⟩ : BufTy).Contents (Elt Ideal)) (w : (⟨S128x64, .f32⟩ : BufTy).Contents (Elt Ideal)) : (⟨S100000x64, .f32⟩ : BufTy).Contents (Elt Ideal) :=
  Host.dotGeneral (F := Ideal) (φ₁ := .f32) (φ₂ := .f32) Cert.ReferenceIdeal.dot_S100000x128_S128x64_S100000x64_1_0_0_1_n_n none x w

/-- Layer 2's dense product: the [100000, 64] hidden features times the [64, 64] weight. -/
def dense2 (h : (⟨S100000x64, .f32⟩ : BufTy).Contents (Elt Ideal)) (w : (⟨S64x64, .f32⟩ : BufTy).Contents (Elt Ideal)) : (⟨S100000x64, .f32⟩ : BufTy).Contents (Elt Ideal) :=
  Host.dotGeneral (F := Ideal) (φ₁ := .f32) (φ₂ := .f32) Cert.ReferenceIdeal.dot_S100000x64_S64x64_S100000x64_1_0_0_1_n_n none h w

/-- The rectified bias layer: max(A + b, 0), the [1, 64] bias row repeated down the 100000 rows. -/
def biasRelu (a : (⟨S100000x64, .f32⟩ : BufTy).Contents (Elt Ideal)) (b : (⟨S1x64, .f32⟩ : BufTy).Contents (Elt Ideal)) : (⟨S100000x64, .f32⟩ : BufTy).Contents (Elt Ideal) :=
  maximumf (F := Ideal) (addf (F := Ideal) a (broadcastInDim S100000x64 ![0, 1] bcast_S1x64_S100000x64_0_1 b))
    (broadcastInDim S100000x64 ![] bcast_S_S100000x64 (constant (F := Ideal) S_ .f32 0x00000000#32))

/-- The linear head: E·w + b, the [1, 1] bias repeated down the 400000 rows. -/
def headLin (e : (⟨S400000x128, .f32⟩ : BufTy).Contents (Elt Ideal)) (w : (⟨S128x1, .f32⟩ : BufTy).Contents (Elt Ideal)) (b : (⟨S1x1, .f32⟩ : BufTy).Contents (Elt Ideal)) : (⟨S400000x1, .f32⟩ : BufTy).Contents (Elt Ideal) :=
  addf (F := Ideal) (Host.dotGeneral (F := Ideal) (φ₁ := .f32) (φ₂ := .f32) Cert.ReferenceIdeal.dot_S400000x128_S128x1_S400000x1_1_0_0_1_n_n none e w)
    (broadcastInDim S400000x1 ![0, 1] bcast_S1x1_S400000x1_0_1 b)

end Cert.Bridge

end
-- ==== Proof.HostFold.lean ====
/-
  The host operations around the tiled calls, read as the reference's stages.
  Both programs build the same graph data from the edge list: the source and destination vectors with the
  self loops appended, the in-degrees by a scatter-add of ones, their inverse square roots where positive, the
  edge weights as the product of the two endpoints' inverse square roots. Each layer then gathers rows of a dense
  product by source (negative indices wrapped by the number of nodes), scales row e by weight e and scatter-adds by
  destination; the head gathers two rows per pair and joins them. Here each stretch of the kernel program's host
  operations between two tiled calls is computed from ANY buffer contents it starts at and identified with the
  reference's stage of the same arguments, given that the buffers it reads hold the reference's earlier stages. The
  two programs spell these operations with the same records over the same shapes, so once the operands agree the
  identification is by unfolding. Two small layout facts are needed besides: the kernel program passes a bias to
  its tiled call as the [64] vector reshaped to a [1, 64] row (and the [1] scalar bias as [1, 1]), where the
  reference broadcasts the vector into the row: the same array, entry by entry.
-/
import proofs.«117341_j78013785964684_1_alg».proof.Proof.Gen.KernelIdeal.Launch
import proofs.«117341_j78013785964684_1_alg».proof.Proof.RefRead
import proofs.«117341_j78013785964684_1_alg».proof.Proof.Stages
import Idealize.ShloMosaic.Lib.StableHlo.Run
import Idealize.ShloMosaic.Lib.ValueLayout

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.ReadP

variable {F : FTy → Type} [FloatOps F]

/-! ## What each stretch writes, and what it leaves alone -/

/-- The buffers the operations before the degree's `where` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps0_keep (W : Valuation τ sig (Elt F)) (r : Ref sig .tc) (h : r ∉ hostOps0_W) :
    StableHlo.after hostOps0 W (Proc.devRef .tc r) = W (Proc.devRef .tc r) :=
  StableHlo.after_of_writes_sub hostOps0 _ hostOps0_writes h

/-- The buffers the `where` that zeroes the inverse square root off the positive degrees write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps0_1_keep (W : Valuation τ sig (Elt F)) (r : Ref sig .tc) (h : r ∉ hostOps0_1_W) :
    StableHlo.after hostOps0_1 W (Proc.devRef .tc r) = W (Proc.devRef .tc r) :=
  StableHlo.after_of_writes_sub hostOps0_1 _ hostOps0_1_writes h

/-- The buffers the operations that form the edge weights write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps0_2_keep (W : Valuation τ sig (Elt F)) (r : Ref sig .tc) (h : r ∉ hostOps0_2_W) :
    StableHlo.after hostOps0_2 W (Proc.devRef .tc r) = W (Proc.devRef .tc r) :=
  StableHlo.after_of_writes_sub hostOps0_2 _ hostOps0_2_writes h

/-- The buffers the first layer's gather, scaling and scatter-add write. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt F))).Forall fun op => op.writes ⊆ (hostOps1_W.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps1_keep (W : Valuation τ sig (Elt F)) (r : Ref sig .tc) (h : r ∉ hostOps1_W) :
    StableHlo.after hostOps1 W (Proc.devRef .tc r) = W (Proc.devRef .tc r) :=
  StableHlo.after_of_writes_sub hostOps1 _ hostOps1_writes h

/-- The buffers the second layer's gather, scaling and scatter-add write. -/
abbrev hostOps3_W : List (Ref sig .tc) := [main_c_9, main_v47, main_v48, main_c_10, main_v49, main_v50, main_v51, main_v52, main_v53, main_v54, main_v55, main_v56, main_cst_11, main_v57, main_v58, main_v59, main_v60]
theorem hostOps3_writes : (hostOps3 : List (HloOp τ sig (Elt F))).Forall fun op => op.writes ⊆ (hostOps3_W.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps3_keep (W : Valuation τ sig (Elt F)) (r : Ref sig .tc) (h : r ∉ hostOps3_W) :
    StableHlo.after hostOps3 W (Proc.devRef .tc r) = W (Proc.devRef .tc r) :=
  StableHlo.after_of_writes_sub hostOps3 _ hostOps3_writes h

/-- The buffers the pair gathers and their join write. -/
abbrev hostOps4_W : List (Ref sig .tc) := [main_v62, main_v63, main_c_12, main_v64, main_v65, main_c_13, main_v66, main_v67, main_v68, main_v69, main_v70, main_v71, main_v72, main_c_14, main_v73, main_v74, main_c_15, main_v75, main_v76, main_v77, main_v78, main_v79, main_v80, main_v81]
theorem hostOps4_writes : (hostOps4 : List (HloOp τ sig (Elt F))).Forall fun op => op.writes ⊆ (hostOps4_W.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps4_keep (W : Valuation τ sig (Elt F)) (r : Ref sig .tc) (h : r ∉ hostOps4_W) :
    StableHlo.after hostOps4 W (Proc.devRef .tc r) = W (Proc.devRef .tc r) :=
  StableHlo.after_of_writes_sub hostOps4 _ hostOps4_writes h

/-- The buffers the final reshape write. -/
abbrev hostOps5_W : List (Ref sig .tc) := [main_v83]
theorem hostOps5_writes : (hostOps5 : List (HloOp τ sig (Elt F))).Forall fun op => op.writes ⊆ (hostOps5_W.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer none of them writes keeps its contents. -/
theorem hostOps5_keep (W : Valuation τ sig (Elt F)) (r : Ref sig .tc) (h : r ∉ hostOps5_W) :
    StableHlo.after hostOps5 W (Proc.devRef .tc r) = W (Proc.devRef .tc r) :=
  StableHlo.after_of_writes_sub hostOps5 _ hostOps5_writes h

/-! ## A vector reshaped to a row is the vector broadcast into the row -/

/-- The [64] bias reshaped to [1, 64] is the reference's broadcast of it along axis 1: entry (0, q) is entry q. -/
theorem row_of_vec (b : (⟨S64, .f32⟩ : BufTy).Contents (Elt F)) :
    (fun i => shapeCast S1x64 b Facts₀.shapeCasts_S64_S1x64 i) = val_main_v44 (F := F) b := by
  funext j
  obtain ⟨u, q, rfl⟩ : ∃ (u : Fin 1) (q : Fin 64), j = ix2 u q := ⟨j 0, j 1, eq_ix2 j⟩
  unfold val_main_v44
  refine (shapeCast_a_1a_apply b _ u q).trans ?_
  refine (broadcastInDim_apply _ _ b (ix2 u q) (ix1 q) (fun a => ?_)).symm
  match a with
  | ⟨0, _⟩ =>
    show q.val = if (64 : Nat) = 1 then 0 else q.val
    rw [if_neg (by decide)]

/-- The [1] bias reshaped to [1, 1] is the reference's broadcast of it along axis 1: the one entry. -/
theorem cell_of_vec (b : (⟨S1, .f32⟩ : BufTy).Contents (Elt F)) :
    (fun i => shapeCast S1x1 b Facts₀.shapeCasts_S1_S1x1 i) = val_main_v101 (F := F) b := by
  funext j
  obtain ⟨u, q, rfl⟩ : ∃ (u : Fin 1) (q : Fin 1), j = ix2 u q := ⟨j 0, j 1, eq_ix2 j⟩
  unfold val_main_v101
  refine (shapeCast_a_1a_apply b _ u q).trans ?_
  refine (broadcastInDim_apply _ _ b (ix2 u q) (ix1 q) (fun a => ?_)).symm
  match a with
  | ⟨0, _⟩ =>
    show q.val = if (1 : Nat) = 1 then 0 else q.val
    rw [if_pos rfl]
    exact Nat.lt_one_iff.mp q.isLt

/-! ## The graph data: source, destination, edge weights -/

/-- The three stretches before the first tiled call, from any contents. -/
abbrev graphData (W : Valuation τ sig (Elt F)) : Valuation τ sig (Elt F) :=
  StableHlo.after hostOps0_2 (StableHlo.after hostOps0_1 (StableHlo.after hostOps0 W))

/-- A buffer none of the three stretches writes keeps its contents. -/
theorem graphData_keep (W : Valuation τ sig (Elt F)) (r : Ref sig .tc) (h0 : r ∉ hostOps0_W) (h1 : r ∉ hostOps0_1_W) (h2 : r ∉ hostOps0_2_W) :
    graphData W (Proc.devRef .tc r) = W (Proc.devRef .tc r) :=
  (hostOps0_2_keep _ r h2).trans ((hostOps0_1_keep _ r h1).trans (hostOps0_keep W r h0))

set_option maxHeartbeats 1000000 in
/-- The source vector (edge sources, then the self loops) is the reference's. -/
theorem graphData_src (W : Valuation τ sig (Elt F)) :
    graphData W (Proc.devRef .tc main_v3) = val_main_v3 (F := F) (W (Proc.devRef .tc main_arg1)) := by
  refine (hostOps0_2_keep _ main_v3 (by decide)).trans ((hostOps0_1_keep _ main_v3 (by decide)).trans ?_)
  simp only [hostOps0]
  after_results
  rfl

set_option maxHeartbeats 1000000 in
/-- The destination vector (edge destinations, then the self loops) is the reference's. -/
theorem graphData_dst (W : Valuation τ sig (Elt F)) :
    graphData W (Proc.devRef .tc main_v6) = val_main_v6 (F := F) (W (Proc.devRef .tc main_arg1)) := by
  refine (hostOps0_2_keep _ main_v6 (by decide)).trans ((hostOps0_1_keep _ main_v6 (by decide)).trans ?_)
  simp only [hostOps0]
  after_results
  rfl

set_option maxHeartbeats 1000000 in
/-- The edge weights, the product of the endpoints' inverse square root degrees, are the reference's. -/
theorem graphData_weight (W : Valuation τ sig (Elt F)) :
    graphData W (Proc.devRef .tc main_v29) = val_main_v30 (F := F) (W (Proc.devRef .tc main_arg1)) := by
  simp only [graphData, hostOps0, hostOps0_1, hostOps0_2]
  after_results_simp
  rfl

/-! ## The layers' aggregations, the pair embeddings and the result -/

set_option maxHeartbeats 1000000 in
/-- Layer 1: from contents whose product buffer holds X·W₁ and whose graph buffers hold the reference's source,
    destination and edge weights, the scatter-added scaled messages are the reference's. -/
theorem layer1_agg (W : Valuation τ sig (Elt F)) (x : (⟨S100000x128, .f32⟩ : BufTy).Contents (Elt F)) (e : (⟨S2x1600000, .i32⟩ : BufTy).Contents (Elt F)) (w1 : (⟨S128x64, .f32⟩ : BufTy).Contents (Elt F))
    (hprod : W (Proc.devRef .tc main_v30) = val_main_v15 (F := F) x w1)
    (hsrc : W (Proc.devRef .tc main_v3) = val_main_v3 (F := F) e) (hdst : W (Proc.devRef .tc main_v6) = val_main_v6 (F := F) e)
    (hwt : W (Proc.devRef .tc main_v29) = val_main_v30 (F := F) e) :
    StableHlo.after hostOps1 W (Proc.devRef .tc main_v43) = val_main_v43 (F := F) x e w1 := by
  simp only [hostOps1]
  after_results
  rw [hprod, hsrc, hdst, hwt]
  rfl

/-- Layer 1's bias, handed to the tiled call as a row, is the reference's broadcast row. -/
theorem layer1_bias (W : Valuation τ sig (Elt F)) (b1 : (⟨S64, .f32⟩ : BufTy).Contents (Elt F)) (hb : W (Proc.devRef .tc main_arg5) = b1) :
    StableHlo.after hostOps1 W (Proc.devRef .tc main_v44) = val_main_v44 (F := F) b1 := by
  simp only [hostOps1]
  after_results
  rw [hb]
  exact row_of_vec b1

set_option maxHeartbeats 1000000 in
/-- Layer 2: the same aggregation of H₁·W₂; the edge weights the kernel program computed once are the ones the
    reference computes again for this layer. -/
theorem layer2_agg (W : Valuation τ sig (Elt F)) (x : (⟨S100000x128, .f32⟩ : BufTy).Contents (Elt F)) (e : (⟨S2x1600000, .i32⟩ : BufTy).Contents (Elt F)) (w1 : (⟨S128x64, .f32⟩ : BufTy).Contents (Elt F)) (b1 : (⟨S64, .f32⟩ : BufTy).Contents (Elt F)) (w2 : (⟨S64x64, .f32⟩ : BufTy).Contents (Elt F))
    (hprod : W (Proc.devRef .tc main_v46) = val_main_v48 (F := F) x e w1 b1 w2)
    (hsrc : W (Proc.devRef .tc main_v3) = val_main_v3 (F := F) e) (hdst : W (Proc.devRef .tc main_v6) = val_main_v6 (F := F) e)
    (hwt : W (Proc.devRef .tc main_v29) = val_main_v30 (F := F) e) :
    StableHlo.after hostOps3 W (Proc.devRef .tc main_v59) = val_main_v76 (F := F) x e w1 b1 w2 := by
  simp only [hostOps3]
  after_results
  rw [hprod, hsrc, hdst, hwt]
  rfl

/-- Layer 2's bias row. -/
theorem layer2_bias (W : Valuation τ sig (Elt F)) (b2 : (⟨S64, .f32⟩ : BufTy).Contents (Elt F)) (hb : W (Proc.devRef .tc main_arg7) = b2) :
    StableHlo.after hostOps3 W (Proc.devRef .tc main_v60) = val_main_v77 (F := F) b2 := by
  simp only [hostOps3]
  after_results
  rw [hb]
  exact (row_of_vec b2).trans rfl

set_option maxHeartbeats 1000000 in
/-- The pair embeddings: the two gathered rows of H₂ per pair, joined along the feature axis. -/
theorem pair_emb (W : Valuation τ sig (Elt Ideal)) (x : (⟨S100000x128, .f32⟩ : BufTy).Contents (Elt Ideal)) (e : (⟨S2x1600000, .i32⟩ : BufTy).Contents (Elt Ideal)) (p : (⟨S400000x2, .i32⟩ : BufTy).Contents (Elt Ideal)) (w1 : (⟨S128x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal))
    (hh : W (Proc.devRef .tc main_v61) = val_main_v80 (F := Ideal) x e w1 b1 w2 b2) (hp : W (Proc.devRef .tc main_arg3) = p) :
    StableHlo.after hostOps4 W (Proc.devRef .tc main_v80) = val_main_v99 (F := Ideal) x e p w1 b1 w2 b2 := by
  simp only [hostOps4]
  after_results
  rw [hh, hp]
  rfl

/-- The head's scalar bias as a [1, 1] array. -/
theorem head_bias (W : Valuation τ sig (Elt F)) (bh : (⟨S1, .f32⟩ : BufTy).Contents (Elt F)) (hb : W (Proc.devRef .tc main_arg9) = bh) :
    StableHlo.after hostOps4 W (Proc.devRef .tc main_v81) = val_main_v101 (F := F) bh := by
  simp only [hostOps4]
  after_results
  rw [hb]
  exact cell_of_vec bh

/-- The result: the head's [400000, 1] column flattened. -/
theorem result_flat (W : Valuation τ sig (Elt F)) (x : (⟨S100000x128, .f32⟩ : BufTy).Contents (Elt F)) (e : (⟨S2x1600000, .i32⟩ : BufTy).Contents (Elt F)) (p : (⟨S400000x2, .i32⟩ : BufTy).Contents (Elt F)) (w1 : (⟨S128x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) (wh : (⟨S128x1, .f32⟩ : BufTy).Contents (Elt F)) (bh : (⟨S1, .f32⟩ : BufTy).Contents (Elt F))
    (hcol : W (Proc.devRef .tc main_v82) = val_main_v103 (F := F) x e p w1 b1 w2 b2 wh bh) :
    StableHlo.after hostOps5 W (Proc.devRef .tc main_v83) = val_main_v104 (F := F) x e p w1 b1 w2 b2 wh bh := by
  simp only [hostOps5]
  after_results
  rw [hcol]
  rfl

/-! ## The tiled calls' whole-array operations are the reference's stages -/

theorem dense1_stage (x : (⟨S100000x128, .f32⟩ : BufTy).Contents (Elt Ideal)) (w1 : (⟨S128x64, .f32⟩ : BufTy).Contents (Elt Ideal)) : dense1 x w1 = val_main_v15 (F := Ideal) x w1 := rfl

theorem bias1_stage (x : (⟨S100000x128, .f32⟩ : BufTy).Contents (Elt Ideal)) (e : (⟨S2x1600000, .i32⟩ : BufTy).Contents (Elt Ideal)) (w1 : (⟨S128x64, .f32⟩ : BufTy).Contents (Elt Ideal)) (b1 : (⟨S64, .f32⟩ : BufTy).Contents (Elt Ideal)) :
    biasRelu (val_main_v43 (F := Ideal) x e w1) (val_main_v44 (F := Ideal) b1) = val_main_v47 (F := Ideal) x e w1 b1 := rfl

theorem dense2_stage (x : (⟨S100000x128, .f32⟩ : BufTy).Contents (Elt Ideal)) (e : (⟨S2x1600000, .i32⟩ : BufTy).Contents (Elt Ideal)) (w1 : (⟨S128x64, .f32⟩ : BufTy).Contents (Elt Ideal)) (b1 : (⟨S64, .f32⟩ : BufTy).Contents (Elt Ideal)) (w2 : (⟨S64x64, .f32⟩ : BufTy).Contents (Elt Ideal)) :
    dense2 (val_main_v47 (F := Ideal) x e w1 b1) w2 = val_main_v48 (F := Ideal) x e w1 b1 w2 := rfl

theorem bias2_stage (x : (⟨S100000x128, .f32⟩ : BufTy).Contents (Elt Ideal)) (e : (⟨S2x1600000, .i32⟩ : BufTy).Contents (Elt Ideal)) (w1 : (⟨S128x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) :
    biasRelu (val_main_v76 (F := Ideal) x e w1 b1 w2) (val_main_v77 (F := Ideal) b2) = val_main_v80 (F := Ideal) x e w1 b1 w2 b2 := rfl

theorem head_stage (x : (⟨S100000x128, .f32⟩ : BufTy).Contents (Elt Ideal)) (e : (⟨S2x1600000, .i32⟩ : BufTy).Contents (Elt Ideal)) (p : (⟨S400000x2, .i32⟩ : BufTy).Contents (Elt Ideal)) (w1 : (⟨S128x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) (wh : (⟨S128x1, .f32⟩ : BufTy).Contents (Elt Ideal)) (bh : (⟨S1, .f32⟩ : BufTy).Contents (Elt Ideal)) :
    headLin (val_main_v99 (F := Ideal) x e p w1 b1 w2 b2) wh (val_main_v101 (F := Ideal) bh) = val_main_v103 (F := Ideal) x e p w1 b1 w2 b2 wh bh := rfl

end Cert.Bridge

end
-- ==== Proof.Dense1.lean ====
/-
  Region 0 multiplies the [100000, 128] feature array X by the [128, 64] weight W in ten blocks of 10000 rows. At
  grid point t the body takes rows 10000·t … 10000·t + 9999 of X and the whole of W and stores their product, the
  rounding of the operands to bf16 being the identity at the extended reals: entry (r, j) of the block product is
  the sum over k < 128 of X(10000·t + r, k) · W(k, j), which is entry (10000·t + r, j) of X·W. The ten row blocks
  tile the output array, so after the region it holds X·W of the arrays found on entry.
-/
import proofs.«117341_j78013785964684_1_alg».proof.Proof.Gen.KernelIdeal.Frame
import proofs.«117341_j78013785964684_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat)

/-! ## The block product at an index -/

/-- The left operand's row coordinate is the output's row coordinate. -/
theorem lhs_blk1_0 (y : S10000x64.Idx) (q : dot_S10000x128_S128x64_S10000x64_1_0_0_1_n_n.contr.Idx) :
    (dot_S10000x128_S128x64_S10000x64_1_0_0_1_n_n.lhsIdx y q 0).val = (y 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column coordinate is the contraction index. -/
theorem lhs_blk1_1 (y : S10000x64.Idx) (q : dot_S10000x128_S128x64_S10000x64_1_0_0_1_n_n.contr.Idx) :
    (dot_S10000x128_S128x64_S10000x64_1_0_0_1_n_n.lhsIdx y q 1).val = (q ⟨0, by decide⟩).val :=
  dot_S10000x128_S128x64_S10000x64_1_0_0_1_n_n.lhsIdx_val_of_single rfl y q
/-- The right operand's row coordinate is the contraction index. -/
theorem rhs_blk1_0 (y : S10000x64.Idx) (q : dot_S10000x128_S128x64_S10000x64_1_0_0_1_n_n.contr.Idx) :
    (dot_S10000x128_S128x64_S10000x64_1_0_0_1_n_n.rhsIdx y q 0).val = (q ⟨0, by decide⟩).val :=
  dot_S10000x128_S128x64_S10000x64_1_0_0_1_n_n.rhsIdx_val_of_single rfl y q
/-- The right operand's column coordinate is the output's column coordinate. -/
theorem rhs_blk1_1 (y : S10000x64.Idx) (q : dot_S10000x128_S128x64_S10000x64_1_0_0_1_n_n.contr.Idx) :
    (dot_S10000x128_S128x64_S10000x64_1_0_0_1_n_n.rhsIdx y q 1).val = (y 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (r, k) of a row block. -/
abbrev lidx_blk1 (y : S10000x64.Idx) (k : Fin 128) : S10000x128.Idx := fun a => match a with
  | ⟨0, _⟩ => ⟨(y 0).val, (y 0).isLt⟩
  | ⟨1, _⟩ => ⟨k.val, k.isLt⟩
/-- Entry (k, j) of the weight. -/
abbrev ridx_blk1 (y : S10000x64.Idx) (k : Fin 128) : S128x64.Idx := fun a => match a with
  | ⟨0, _⟩ => ⟨k.val, k.isLt⟩
  | ⟨1, _⟩ => ⟨(y 1).val, (y 1).isLt⟩

set_option maxHeartbeats 400000 in
/-- The body's payload at (r, j) is the sum over k of block(r, k) · weight(k, j). -/
theorem pay_dense1_apply (x0 : Vec Ideal S10000x128 .f32) (x1 : Vec Ideal S128x64 .f32) (y : S10000x64.Idx) :
    k0_pay1 (F := Ideal) x0 x1 y = ∑ k : Fin 128, x0 (lidx_blk1 y k) * x1 (ridx_blk1 y k) := by
  unfold k0_pay1
  refine (Ideal.matmul_constant_zero_apply dot_S10000x128_S128x64_S10000x64_1_0_0_1_n_n none _ _ y).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = lidx_blk1 y k := funext fun a => Fin.ext (by
    match a with
    | ⟨0, _⟩ => exact lhs_blk1_0 _ _
    | ⟨1, _⟩ => exact (lhs_blk1_1 _ _).trans hk)
  have er : dot_S10000x128_S128x64_S10000x64_1_0_0_1_n_n.rhsIdx y ((ValueIdx.contrEquiv1 dot_S10000x128_S128x64_S10000x64_1_0_0_1_n_n 128 rfl rfl).symm k) = ridx_blk1 y k := funext fun a => Fin.ext (by
    match a with
    | ⟨0, _⟩ => exact (rhs_blk1_0 _ _).trans hk
    | ⟨1, _⟩ => exact rhs_blk1_1 _ _)
  rw [el, er]
  rfl

/-! ## The whole product at an index -/

/-- The left operand's row coordinate is the output's row coordinate. -/
theorem lhs_ref1_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- The left operand's column coordinate is the contraction index. -/
theorem lhs_ref1_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- The right operand's row coordinate is the contraction index. -/
theorem rhs_ref1_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- The right operand's column coordinate is the output's column coordinate. -/
theorem rhs_ref1_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- Entry (n, k) of the feature array. -/
abbrev lidx_ref1 (i : Cert.ReferenceIdeal.S100000x64.Idx) (k : Fin 128) : Cert.ReferenceIdeal.S100000x128.Idx := fun a => match a with
  | ⟨0, _⟩ => ⟨(i 0).val, (i 0).isLt⟩
  | ⟨1, _⟩ => ⟨k.val, k.isLt⟩
/-- Entry (k, j) of the weight. -/
abbrev ridx_ref1 (i : Cert.ReferenceIdeal.S100000x64.Idx) (k : Fin 128) : Cert.ReferenceIdeal.S128x64.Idx := fun a => match a with
  | ⟨0, _⟩ => ⟨k.val, k.isLt⟩
  | ⟨1, _⟩ => ⟨(i 1).val, (i 1).isLt⟩

set_option maxHeartbeats 400000 in
/-- X·W at (n, j) is the sum over k of X(n, k) · W(k, j). -/
theorem dense1_apply (x : (⟨Cert.ReferenceIdeal.S100000x128, .f32⟩ : BufTy).Contents (Elt Ideal)) (w : (⟨Cert.ReferenceIdeal.S128x64, .f32⟩ : BufTy).Contents (Elt Ideal))
    (i : Cert.ReferenceIdeal.S100000x64.Idx) :
    dense1 x w i = ∑ k : Fin 128, x (lidx_ref1 i k) * w (ridx_ref1 i k) := by
  unfold dense1
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = lidx_ref1 i k := funext fun a => Fin.ext (by
    match a with
    | ⟨0, _⟩ => exact lhs_ref1_0 _ _
    | ⟨1, _⟩ => exact (lhs_ref1_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = ridx_ref1 i k := funext fun a => Fin.ext (by
    match a with
    | ⟨0, _⟩ => exact (rhs_ref1_0 _ _).trans hk
    | ⟨1, _⟩ => exact rhs_ref1_1 _ _)
  rw [el, er]

/-! ## From the row blocks to the array -/

theorem hz_dense1 : (![0, 0] : Fin 2 → Nat) = fun _ => 0 := funext fun a => by fin_cases a <;> rfl

/-- The index maps over the grid: the feature window and the output window sit at row block t, column block 0; the
    weight window at block (0, 0). -/
theorem idx_dense1 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

set_option maxHeartbeats 400000 in
/-- What point t writes back is row block t of X·W. -/
theorem flushed_dense1 (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (dense1 (V c main_arg0) (V c main_arg4)) := by
  show (cfg0.win 2).cut (grid0.coords t) ((dat0 (F := Ideal) V c).after 2 t) = _
  rw [after0_2]
  unfold out0_2
  rw [View.canon_unit_zero hz_dense1]
  simp only [View.ld_unit_zero (S := S10000x128) hz_dense1, View.ld_unit_zero (S := S128x64) hz_dense1]
  obtain ⟨e0, e1, e2, e3, e4, e5⟩ := idx_dense1 t
  funext y
  show k0_pay1 (F := Ideal) (iblk0 V c 0 t) (iblk0 V c 1 t) y = dense1 (V c main_arg0) (V c main_arg4) (((cfg0.win 2).blk t).view.emb y)
  rw [pay_dense1_apply, dense1_apply]
  refine Finset.sum_congr rfl fun k _ => ?_
  have hy0 : (y 0).val < 10000 := (y 0).isLt
  have hy1 : (y 1).val < 64 := (y 1).isLt
  have h0 : ((cfg0.win 0).blk t).view.emb (lidx_blk1 y k) = lidx_ref1 (((cfg0.win 2).blk t).view.emb y) k := by
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 128 + 1 * k.val = k.val; omega
  have h1 : ((cfg0.win 1).blk t).view.emb (ridx_blk1 y k) = ridx_ref1 (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega
  have hx : iblk0 (F := Ideal) V c 0 t (lidx_blk1 y k) = V c main_arg0 (lidx_ref1 (((cfg0.win 2).blk t).view.emb y) k) := by
    show V c main_arg0 (((cfg0.win 0).blk t).view.emb (lidx_blk1 y k)) = _
    exact congrArg (V c main_arg0) h0
  have hw : iblk0 (F := Ideal) V c 1 t (ridx_blk1 y k) = V c main_arg4 (ridx_ref1 (((cfg0.win 2).blk t).view.emb y) k) := by
    show V c main_arg4 (((cfg0.win 1).blk t).view.emb (ridx_blk1 y k)) = _
    exact congrArg (V c main_arg4) h1
  rw [hx, hw]

/-- An index of the output array is in point t's block iff each coordinate is in the block's range on its axis. -/
theorem mem_blk_dense1 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row n lies in the block of point n / 10000: the ten blocks cover the array. -/
theorem cover_dense1 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1, e2, e3, e4, e5⟩ := idx_dense1 t
  refine ⟨t, flush0_2 t, ?_⟩
  rw [mem_blk_dense1]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the first tiled product the output array is X·W of the arrays found on entry. -/
theorem final_dense1 (V : (c : Dev nD) → (b : Ref sig .tc) → Buf (Elt Ideal) ((c : Thread nD τ).loc b)) (c : Dev nD) :
    (dat0 (F := Ideal) V c).arrAt 2 cfg0.N = dense1 (V c main_arg0) (V c main_arg4) := by
  exact (dat0 (F := Ideal) V c).arrAt_eq_of_cover 2 (dense1 (V c main_arg0) (V c main_arg4))
    (fun t _ => flushed_dense1 V c t) cover_dense1

end Cert.Bridge

end
-- ==== Proof.Bias1.lean ====
/-
  The first tiled bias layer, block by block. At grid point t the body leaves in the output window's buffer
  max(x + row, 0), x the [10000, 64] block of rows 10000·t … 10000·t + 9999 of the input array and row the whole [1, 64]
  bias array repeated down the block's rows. Read at (p, q) this is max(A (10000·t + p, q) + b (0, q), 0), the entry
  (10000·t + p, q) of max(A + b, 0) with the bias row repeated down all 100000 rows. Row r of the array lies in the
  block of point r / 10000, so the ten write-backs cover the array and it ends holding that function everywhere.
-/
import proofs.«117341_j78013785964684_1_alg».proof.Proof.Gen.KernelIdeal.Frame
import proofs.«117341_j78013785964684_1_alg».proof.Proof.Stages
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Idealize.ShloMosaic.ValueIdx
open Cert.KernelIdeal Cert.KernelIdeal.Gen
open Idealize.ShloMosaic.Pipeline (Dat)

namespace Bias1

/-- The zero offsets of a whole-block access, as a constant function. -/
theorem zero_offsets : (![0, 0] : Fin 2 → Nat) = fun _ => 0 :=
  funext fun a => match a with | ⟨0, _⟩ => rfl | ⟨1, _⟩ => rfl

/-- The body's payload at (p, q): the block's entry plus the bias row's entry in column q, cut below at zero. -/
theorem payload_apply (x : Vec Ideal S10000x64 .f32) (row : Vec Ideal S1x64 .f32) (p : Fin 10000) (q : Fin 64) :
    k1_pay1 (F := Ideal) x row (ix2 p q)
      = max (x (ix2 p q) + row (ix2 (0 : Fin 1) q)) (Ideal.ofBits .f32 0x00000000#32) := by
  unfold k1_pay1
  refine congrArg₂ max (congrArg₂ (· + ·) ?_ ?_) rfl
  · exact congrFun (shapeCast_self x _) _
  · refine (broadcastTo_apply _ _ (ix2 p q) (ix2 (0 : Fin 1) q) ?_).trans (congrFun (shapeCast_self row _) _)
    intro a
    match a with
    | ⟨0, _⟩ => rfl
    | ⟨1, _⟩ => rfl

/-- The whole-array layer at an index i whose column is q: the array's entry plus the bias row's entry in column q,
    cut below at zero. -/
theorem biasRelu_apply (A : (⟨S100000x64, .f32⟩ : BufTy).Contents (Elt Ideal)) (b : (⟨S1x64, .f32⟩ : BufTy).Contents (Elt Ideal))
    (i : S100000x64.Idx) (q : Fin 64)
    (hq : (i 1).val = q.val) :
    biasRelu A b i = max ((A i : Ideal .f32) + (b (ix2 (0 : Fin 1) q) : Ideal .f32)) (Ideal.ofBits .f32 0x00000000#32) := by
  unfold biasRelu
  rw [maximumf_apply, addf_apply]
  refine congrArg₂ max (congrArg₂ (· + ·) rfl ?_) ?_
  · refine broadcastInDim_apply _ _ b i (ix2 (0 : Fin 1) q) ?_
    intro a
    match a with
    | ⟨0, _⟩ => rfl
    | ⟨1, _⟩ =>
      show q.val = if (64 : Nat) = 1 then 0 else (i 1).val
      rw [if_neg (by decide), hq]
  · exact broadcastInDim_apply _ _ _ i ix0 (fun a => a.elim0)

/-- The printed index maps over the grid: the row-tiled windows sit at block (t, 0), the bias window at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max(A + b, 0) of the arrays found on entry. -/
theorem flushed_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (biasRelu (V c main_v43) (V c main_v44)) := by
  show (cfg1.win 2).cut (grid1.coords t) ((dat1 (F := Ideal) V c).after 2 t) = _
  rw [after1_2]
  unfold out1_2
  rw [View.canon_unit_zero zero_offsets]
  simp only [View.ld_unit_zero (S := S10000x64) zero_offsets, View.ld_unit_zero (S := S1x64) zero_offsets]
  obtain ⟨e00, e01, e10, e11, e20, e21⟩ := index_facts t
  funext y
  obtain ⟨p, q, rfl⟩ : ∃ (p : Fin 10000) (q : Fin 64), y = ix2 p q := ⟨y 0, y 1, eq_ix2 y⟩
  have hp : p.val < 10000 := p.isLt
  have hq : q.val < 64 := q.isLt
  -- the output block's entry (p, q) sits in column q of the array
  have hcol : ((((cfg1.win 2).blk t).view.emb (ix2 p q)) 1).val = q.val := by
    show win1_2.index t (1 : Fin 2) * 64 + 1 * q.val = q.val
    omega
  -- the input block's entry (p, q) is the array's entry under the output block's (p, q)
  have hin : ((cfg1.win 0).blk t).view.emb (ix2 p q) = ((cfg1.win 2).blk t).view.emb (ix2 p q) := by
    funext a; apply Fin.ext
    match a with
    | ⟨0, _⟩ =>
      show win1_0.index t (0 : Fin 2) * 10000 + 1 * p.val = win1_2.index t (0 : Fin 2) * 10000 + 1 * p.val
      omega
    | ⟨1, _⟩ =>
      show win1_0.index t (1 : Fin 2) * 64 + 1 * q.val = win1_2.index t (1 : Fin 2) * 64 + 1 * q.val
      omega
  -- the bias window's one block is the whole [1, 64] array
  have hrow : ((cfg1.win 1).blk t).view.emb (ix2 (0 : Fin 1) q) = ix2 (0 : Fin 1) q := by
    funext a; apply Fin.ext
    match a with
    | ⟨0, _⟩ =>
      show win1_1.index t (0 : Fin 2) * 1 + 1 * 0 = 0
      omega
    | ⟨1, _⟩ =>
      show win1_1.index t (1 : Fin 2) * 64 + 1 * q.val = q.val
      omega
  show k1_pay1 (F := Ideal) (iblk1 V c 0 t) (iblk1 V c 1 t) (ix2 p q)
    = biasRelu (V c main_v43) (V c main_v44) (((cfg1.win 2).blk t).view.emb (ix2 p q))
  rw [payload_apply, biasRelu_apply _ _ _ q hcol]
  refine congrArg₂ max (congrArg₂ (· + ·) ?_ ?_) rfl
  · show V c main_v43 (((cfg1.win 0).blk t).view.emb (ix2 p q)) = V c main_v43 (((cfg1.win 2).blk t).view.emb (ix2 p q))
    rw [hin]
  · show V c main_v44 (((cfg1.win 1).blk t).view.emb (ix2 (0 : Fin 1) q)) = V c main_v44 (ix2 (0 : Fin 1) q)
    rw [hrow]

/-- An index of the array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Every index of the array is in some written-back block: row r is in the block of point r / 10000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < cfg1.N := by
    show (i 0).val / 10000 < 10
    omega
  have key : ∀ t : Fin cfg1.N, t.val = (i 0).val / 10000 → i ∈ ((cfg1.win 2).blk t).view.set := by
    intro t ht
    obtain ⟨e00, e01, e10, e11, e20, e21⟩ := index_facts t
    rw [mem_block]
    intro a
    match a with
    | ⟨0, _⟩ =>
      show win1_2.index t (0 : Fin 2) * 10000 ≤ (i 0).val ∧ (i 0).val < win1_2.index t (0 : Fin 2) * 10000 + 10000
      omega
    | ⟨1, _⟩ =>
      show win1_2.index t (1 : Fin 2) * 64 ≤ (i 1).val ∧ (i 1).val < win1_2.index t (1 : Fin 2) * 64 + 64
      omega
  exact ⟨⟨(i 0).val / 10000, hlt⟩, flush1_2 _, key _ rfl⟩

end Bias1

/-- After the first tiled bias layer the output array is max(A + b, 0) of the arrays found on entry. -/
theorem final_bias1 (V : (c : Dev nD) → (b : Ref sig .tc) → Buf (Elt Ideal) ((c : Thread nD τ).loc b)) (c : Dev nD) :
    (dat1 (F := Ideal) V c).arrAt 2 cfg1.N = biasRelu (V c main_v43) (V c main_v44) :=
  (dat1 (F := Ideal) V c).arrAt_eq_of_cover 2 (biasRelu (V c main_v43) (V c main_v44))
    (fun t _ => Bias1.flushed_eq V c t) Bias1.covered

end Cert.Bridge

end
-- ==== Proof.Dense2.lean ====
/-
  Region 2 multiplies the [100000, 64] array H of hidden features by the [64, 64] weight W in ten blocks of 10000
  rows. At grid point t the body takes rows 10000·t … 10000·t + 9999 of H and the whole of W and stores their
  product, the reshaping to the same shape and the rounding of the operands to bf16 being the identity at the
  extended reals: entry (r, j) of the block product is the sum over k < 64 of H(10000·t + r, k) · W(k, j), which is
  entry (10000·t + r, j) of H·W. The ten row blocks tile the output array, so after the region it holds H·W of the
  arrays found on entry.
-/
import proofs.«117341_j78013785964684_1_alg».proof.Proof.Gen.KernelIdeal.Frame
import proofs.«117341_j78013785964684_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat)

/-! ## The block product at an index -/

/-- The left operand's row coordinate is the output's row coordinate. -/
theorem lhs_blk2_0 (y : S10000x64.Idx) (q : dot_S10000x64_S64x64_S10000x64_1_0_0_1_n_n.contr.Idx) :
    (dot_S10000x64_S64x64_S10000x64_1_0_0_1_n_n.lhsIdx y q 0).val = (y 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contraction index. -/
theorem lhs_blk2_1 (y : S10000x64.Idx) (q : dot_S10000x64_S64x64_S10000x64_1_0_0_1_n_n.contr.Idx) :
    (dot_S10000x64_S64x64_S10000x64_1_0_0_1_n_n.lhsIdx y q 1).val = (q ⟨0, by decide⟩).val :=
  dot_S10000x64_S64x64_S10000x64_1_0_0_1_n_n.lhsIdx_val_of_single rfl y q
/-- The right operand's row coordinate is the contraction index. -/
theorem rhs_blk2_0 (y : S10000x64.Idx) (q : dot_S10000x64_S64x64_S10000x64_1_0_0_1_n_n.contr.Idx) :
    (dot_S10000x64_S64x64_S10000x64_1_0_0_1_n_n.rhsIdx y q 0).val = (q ⟨0, by decide⟩).val :=
  dot_S10000x64_S64x64_S10000x64_1_0_0_1_n_n.rhsIdx_val_of_single rfl y q
/-- The right operand's column coordinate is the output's column coordinate. -/
theorem rhs_blk2_1 (y : S10000x64.Idx) (q : dot_S10000x64_S64x64_S10000x64_1_0_0_1_n_n.contr.Idx) :
    (dot_S10000x64_S64x64_S10000x64_1_0_0_1_n_n.rhsIdx y q 1).val = (y 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (r, k) of a row block. -/
abbrev lidx_blk2 (y : S10000x64.Idx) (k : Fin 64) : S10000x64.Idx := fun a => match a with
  | ⟨0, _⟩ => ⟨(y 0).val, (y 0).isLt⟩
  | ⟨1, _⟩ => ⟨k.val, k.isLt⟩
/-- Entry (k, j) of the weight. -/
abbrev ridx_blk2 (y : S10000x64.Idx) (k : Fin 64) : S64x64.Idx := fun a => match a with
  | ⟨0, _⟩ => ⟨k.val, k.isLt⟩
  | ⟨1, _⟩ => ⟨(y 1).val, (y 1).isLt⟩

set_option maxHeartbeats 400000 in
/-- The body's payload at (r, j) is the sum over k of block(r, k) · weight(k, j). -/
theorem pay_dense2_apply (x0 : Vec Ideal S10000x64 .f32) (x1 : Vec Ideal S64x64 .f32) (y : S10000x64.Idx) :
    k2_pay1 (F := Ideal) x0 x1 y = ∑ k : Fin 64, x0 (lidx_blk2 y k) * x1 (ridx_blk2 y k) := by
  unfold k2_pay1
  refine (Ideal.matmul_constant_zero_apply dot_S10000x64_S64x64_S10000x64_1_0_0_1_n_n none _ _ y).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = lidx_blk2 y k := funext fun a => Fin.ext (by
    match a with
    | ⟨0, _⟩ => exact lhs_blk2_0 _ _
    | ⟨1, _⟩ => exact (lhs_blk2_1 _ _).trans hk)
  have er : dot_S10000x64_S64x64_S10000x64_1_0_0_1_n_n.rhsIdx y ((ValueIdx.contrEquiv1 dot_S10000x64_S64x64_S10000x64_1_0_0_1_n_n 64 rfl rfl).symm k) = ridx_blk2 y k := funext fun a => Fin.ext (by
    match a with
    | ⟨0, _⟩ => exact (rhs_blk2_0 _ _).trans hk
    | ⟨1, _⟩ => exact rhs_blk2_1 _ _)
  rw [el, er, shapeCast_self]
  rfl

/-! ## The whole product at an index -/

/-- The left operand's row coordinate is the output's row coordinate. -/
theorem lhs_ref2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
/-- The left operand's column coordinate is the contraction index. -/
theorem lhs_ref2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
/-- The right operand's row coordinate is the contraction index. -/
theorem rhs_ref2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
/-- The right operand's column coordinate is the output's column coordinate. -/
theorem rhs_ref2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- Entry (n, k) of the hidden-feature array. -/
abbrev lidx_ref2 (i : Cert.ReferenceIdeal.S100000x64.Idx) (k : Fin 64) : Cert.ReferenceIdeal.S100000x64.Idx := fun a => match a with
  | ⟨0, _⟩ => ⟨(i 0).val, (i 0).isLt⟩
  | ⟨1, _⟩ => ⟨k.val, k.isLt⟩
/-- Entry (k, j) of the weight. -/
abbrev ridx_ref2 (i : Cert.ReferenceIdeal.S100000x64.Idx) (k : Fin 64) : Cert.ReferenceIdeal.S64x64.Idx := fun a => match a with
  | ⟨0, _⟩ => ⟨k.val, k.isLt⟩
  | ⟨1, _⟩ => ⟨(i 1).val, (i 1).isLt⟩

set_option maxHeartbeats 400000 in
/-- H·W at (n, j) is the sum over k of H(n, k) · W(k, j). -/
theorem dense2_apply (x : (⟨Cert.ReferenceIdeal.S100000x64, .f32⟩ : BufTy).Contents (Elt Ideal)) (w : (⟨Cert.ReferenceIdeal.S64x64, .f32⟩ : BufTy).Contents (Elt Ideal))
    (i : Cert.ReferenceIdeal.S100000x64.Idx) :
    dense2 x w i = ∑ k : Fin 64, x (lidx_ref2 i k) * w (ridx_ref2 i k) := by
  unfold dense2
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = lidx_ref2 i k := funext fun a => Fin.ext (by
    match a with
    | ⟨0, _⟩ => exact lhs_ref2_0 _ _
    | ⟨1, _⟩ => exact (lhs_ref2_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = ridx_ref2 i k := funext fun a => Fin.ext (by
    match a with
    | ⟨0, _⟩ => exact (rhs_ref2_0 _ _).trans hk
    | ⟨1, _⟩ => exact rhs_ref2_1 _ _)
  rw [el, er]

/-! ## From the row blocks to the array -/

theorem hz_dense2 : (![0, 0] : Fin 2 → Nat) = fun _ => 0 := funext fun a => by fin_cases a <;> rfl

/-- The index maps over the grid: the hidden-feature window and the output window sit at row block t, column block 0; the
    weight window at block (0, 0). -/
theorem idx_dense2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

set_option maxHeartbeats 400000 in
/-- What point t writes back is row block t of H·W. -/
theorem flushed_dense2 (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (dense2 (V c main_v45) (V c main_arg6)) := by
  show (cfg2.win 2).cut (grid2.coords t) ((dat2 (F := Ideal) V c).after 2 t) = _
  rw [after2_2]
  unfold out2_2
  rw [View.canon_unit_zero hz_dense2]
  simp only [View.ld_unit_zero (S := S10000x64) hz_dense2, View.ld_unit_zero (S := S64x64) hz_dense2]
  obtain ⟨e0, e1, e2, e3, e4, e5⟩ := idx_dense2 t
  funext y
  show k2_pay1 (F := Ideal) (iblk2 V c 0 t) (iblk2 V c 1 t) y = dense2 (V c main_v45) (V c main_arg6) (((cfg2.win 2).blk t).view.emb y)
  rw [pay_dense2_apply, dense2_apply]
  refine Finset.sum_congr rfl fun k _ => ?_
  have hy0 : (y 0).val < 10000 := (y 0).isLt
  have hy1 : (y 1).val < 64 := (y 1).isLt
  have h0 : ((cfg2.win 0).blk t).view.emb (lidx_blk2 y k) = lidx_ref2 (((cfg2.win 2).blk t).view.emb y) k := by
    funext a; apply Fin.ext
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 64 + 1 * k.val = k.val; omega
  have h1 : ((cfg2.win 1).blk t).view.emb (ridx_blk2 y k) = ridx_ref2 (((cfg2.win 2).blk t).view.emb y) k := by
    funext a; apply Fin.ext
    match a with
    | ⟨0, _⟩ => show win2_1.index t (0 : Fin 2) * 64 + 1 * k.val = k.val; omega
    | ⟨1, _⟩ => show win2_1.index t (1 : Fin 2) * 64 + 1 * (y 1).val = win2_2.index t (1 : Fin 2) * 64 + 1 * (y 1).val; omega
  have hx : iblk2 (F := Ideal) V c 0 t (lidx_blk2 y k) = V c main_v45 (lidx_ref2 (((cfg2.win 2).blk t).view.emb y) k) := by
    show V c main_v45 (((cfg2.win 0).blk t).view.emb (lidx_blk2 y k)) = _
    exact congrArg (V c main_v45) h0
  have hw : iblk2 (F := Ideal) V c 1 t (ridx_blk2 y k) = V c main_arg6 (ridx_ref2 (((cfg2.win 2).blk t).view.emb y) k) := by
    show V c main_arg6 (((cfg2.win 1).blk t).view.emb (ridx_blk2 y k)) = _
    exact congrArg (V c main_arg6) h1
  rw [hx, hw]

/-- An index of the output array is in point t's block iff each coordinate is in the block's range on its axis. -/
theorem mem_blk_dense2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row n lies in the block of point n / 10000: the ten blocks cover the array. -/
theorem cover_dense2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, by show _ < grid2.N; rw [N_2]; omega⟩, rfl⟩
  obtain ⟨e0, e1, e2, e3, e4, e5⟩ := idx_dense2 t
  refine ⟨t, flush2_2 t, ?_⟩
  rw [mem_blk_dense2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the second tiled product the output array is H·W of the arrays found on entry. -/
theorem final_dense2 (V : (c : Dev nD) → (b : Ref sig .tc) → Buf (Elt Ideal) ((c : Thread nD τ).loc b)) (c : Dev nD) :
    (dat2 (F := Ideal) V c).arrAt 2 cfg2.N = dense2 (V c main_v45) (V c main_arg6) := by
  exact (dat2 (F := Ideal) V c).arrAt_eq_of_cover 2 (dense2 (V c main_v45) (V c main_arg6))
    (fun t _ => flushed_dense2 V c t) cover_dense2

end Cert.Bridge

end
-- ==== Proof.Bias2.lean ====
/-
  The second tiled bias layer, block by block. At grid point t the body leaves in the output window's buffer
  max(x + row, 0), x the [10000, 64] block of rows 10000·t … 10000·t + 9999 of the input array and row the whole [1, 64]
  bias array repeated down the block's rows. Read at (p, q) this is max(A (10000·t + p, q) + b (0, q), 0), the entry
  (10000·t + p, q) of max(A + b, 0) with the bias row repeated down all 100000 rows. Row r of the array lies in the
  block of point r / 10000, so the ten write-backs cover the array and it ends holding that function everywhere.
-/
import proofs.«117341_j78013785964684_1_alg».proof.Proof.Gen.KernelIdeal.Frame
import proofs.«117341_j78013785964684_1_alg».proof.Proof.Stages
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Idealize.ShloMosaic.ValueIdx
open Cert.KernelIdeal Cert.KernelIdeal.Gen
open Idealize.ShloMosaic.Pipeline (Dat)

namespace Bias2

/-- The zero offsets of a whole-block access, as a constant function. -/
theorem zero_offsets : (![0, 0] : Fin 2 → Nat) = fun _ => 0 :=
  funext fun a => match a with | ⟨0, _⟩ => rfl | ⟨1, _⟩ => rfl

/-- The body's payload at (p, q): the block's entry plus the bias row's entry in column q, cut below at zero. -/
theorem payload_apply (x : Vec Ideal S10000x64 .f32) (row : Vec Ideal S1x64 .f32) (p : Fin 10000) (q : Fin 64) :
    k3_pay1 (F := Ideal) x row (ix2 p q)
      = max (x (ix2 p q) + row (ix2 (0 : Fin 1) q)) (Ideal.ofBits .f32 0x00000000#32) := by
  unfold k3_pay1
  refine congrArg₂ max (congrArg₂ (· + ·) ?_ ?_) rfl
  · exact congrFun (shapeCast_self x _) _
  · refine (broadcastTo_apply _ _ (ix2 p q) (ix2 (0 : Fin 1) q) ?_).trans (congrFun (shapeCast_self row _) _)
    intro a
    match a with
    | ⟨0, _⟩ => rfl
    | ⟨1, _⟩ => rfl

/-- The whole-array layer at an index i whose column is q: the array's entry plus the bias row's entry in column q,
    cut below at zero. -/
theorem biasRelu_apply (A : (⟨S100000x64, .f32⟩ : BufTy).Contents (Elt Ideal)) (b : (⟨S1x64, .f32⟩ : BufTy).Contents (Elt Ideal))
    (i : S100000x64.Idx) (q : Fin 64)
    (hq : (i 1).val = q.val) :
    biasRelu A b i = max ((A i : Ideal .f32) + (b (ix2 (0 : Fin 1) q) : Ideal .f32)) (Ideal.ofBits .f32 0x00000000#32) := by
  unfold biasRelu
  rw [maximumf_apply, addf_apply]
  refine congrArg₂ max (congrArg₂ (· + ·) rfl ?_) ?_
  · refine broadcastInDim_apply _ _ b i (ix2 (0 : Fin 1) q) ?_
    intro a
    match a with
    | ⟨0, _⟩ => rfl
    | ⟨1, _⟩ =>
      show q.val = if (64 : Nat) = 1 then 0 else (i 1).val
      rw [if_neg (by decide), hq]
  · exact broadcastInDim_apply _ _ _ i ix0 (fun a => a.elim0)

/-- The printed index maps over the grid: the row-tiled windows sit at block (t, 0), the bias window at block (0, 0). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of max(A + b, 0) of the arrays found on entry. -/
theorem flushed_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (biasRelu (V c main_v59) (V c main_v60)) := by
  show (cfg3.win 2).cut (grid3.coords t) ((dat3 (F := Ideal) V c).after 2 t) = _
  rw [after3_2]
  unfold out3_2
  rw [View.canon_unit_zero zero_offsets]
  simp only [View.ld_unit_zero (S := S10000x64) zero_offsets, View.ld_unit_zero (S := S1x64) zero_offsets]
  obtain ⟨e00, e01, e10, e11, e20, e21⟩ := index_facts t
  funext y
  obtain ⟨p, q, rfl⟩ : ∃ (p : Fin 10000) (q : Fin 64), y = ix2 p q := ⟨y 0, y 1, eq_ix2 y⟩
  have hp : p.val < 10000 := p.isLt
  have hq : q.val < 64 := q.isLt
  -- the output block's entry (p, q) sits in column q of the array
  have hcol : ((((cfg3.win 2).blk t).view.emb (ix2 p q)) 1).val = q.val := by
    show win3_2.index t (1 : Fin 2) * 64 + 1 * q.val = q.val
    omega
  -- the input block's entry (p, q) is the array's entry under the output block's (p, q)
  have hin : ((cfg3.win 0).blk t).view.emb (ix2 p q) = ((cfg3.win 2).blk t).view.emb (ix2 p q) := by
    funext a; apply Fin.ext
    match a with
    | ⟨0, _⟩ =>
      show win3_0.index t (0 : Fin 2) * 10000 + 1 * p.val = win3_2.index t (0 : Fin 2) * 10000 + 1 * p.val
      omega
    | ⟨1, _⟩ =>
      show win3_0.index t (1 : Fin 2) * 64 + 1 * q.val = win3_2.index t (1 : Fin 2) * 64 + 1 * q.val
      omega
  -- the bias window's one block is the whole [1, 64] array
  have hrow : ((cfg3.win 1).blk t).view.emb (ix2 (0 : Fin 1) q) = ix2 (0 : Fin 1) q := by
    funext a; apply Fin.ext
    match a with
    | ⟨0, _⟩ =>
      show win3_1.index t (0 : Fin 2) * 1 + 1 * 0 = 0
      omega
    | ⟨1, _⟩ =>
      show win3_1.index t (1 : Fin 2) * 64 + 1 * q.val = q.val
      omega
  show k3_pay1 (F := Ideal) (iblk3 V c 0 t) (iblk3 V c 1 t) (ix2 p q)
    = biasRelu (V c main_v59) (V c main_v60) (((cfg3.win 2).blk t).view.emb (ix2 p q))
  rw [payload_apply, biasRelu_apply _ _ _ q hcol]
  refine congrArg₂ max (congrArg₂ (· + ·) ?_ ?_) rfl
  · show V c main_v59 (((cfg3.win 0).blk t).view.emb (ix2 p q)) = V c main_v59 (((cfg3.win 2).blk t).view.emb (ix2 p q))
    rw [hin]
  · show V c main_v60 (((cfg3.win 1).blk t).view.emb (ix2 (0 : Fin 1) q)) = V c main_v60 (ix2 (0 : Fin 1) q)
    rw [hrow]

/-- An index of the array is in point t's block iff each coordinate is in the block's range on its axis. -/
theorem mem_block (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v61).slice (win3_2.rect t)).set ↔ _
  rw [View.set_slice_whole, Rect.mem_set_unit]
  exact Iff.rfl

/-- Every index of the array is in some written-back block: row r is in the block of point r / 10000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hlt : (i 0).val / 10000 < cfg3.N := by
    show (i 0).val / 10000 < 10
    omega
  have key : ∀ t : Fin cfg3.N, t.val = (i 0).val / 10000 → i ∈ ((cfg3.win 2).blk t).view.set := by
    intro t ht
    obtain ⟨e00, e01, e10, e11, e20, e21⟩ := index_facts t
    rw [mem_block]
    intro a
    match a with
    | ⟨0, _⟩ =>
      show win3_2.index t (0 : Fin 2) * 10000 ≤ (i 0).val ∧ (i 0).val < win3_2.index t (0 : Fin 2) * 10000 + 10000
      omega
    | ⟨1, _⟩ =>
      show win3_2.index t (1 : Fin 2) * 64 ≤ (i 1).val ∧ (i 1).val < win3_2.index t (1 : Fin 2) * 64 + 64
      omega
  exact ⟨⟨(i 0).val / 10000, hlt⟩, flush3_2 _, key _ rfl⟩

end Bias2

/-- After the second tiled bias layer the output array is max(A + b, 0) of the arrays found on entry. -/
theorem final_bias2 (V : (c : Dev nD) → (b : Ref sig .tc) → Buf (Elt Ideal) ((c : Thread nD τ).loc b)) (c : Dev nD) :
    (dat3 (F := Ideal) V c).arrAt 2 cfg3.N = biasRelu (V c main_v59) (V c main_v60) :=
  (dat3 (F := Ideal) V c).arrAt_eq_of_cover 2 (biasRelu (V c main_v59) (V c main_v60))
    (fun t _ => Bias2.flushed_eq V c t) Bias2.covered

end Cert.Bridge

end
-- ==== Proof.Head.lean ====
/-
  The linear head, from its tiles to the whole array. Each of the 50 grid points multiplies an [8000, 128] block of
  pair embeddings by the whole [128, 1] weight column and adds the [1, 1] bias: at the extended reals the entry in
  row r of that block's result is the sum over k < 128 of E[8000 t + r, k] · w[k, 0], plus b[0, 0]. The whole-array
  head E·w + b has the same sum in row 8000 t + r, so point t writes back block t of it; the 50 blocks of 8000 rows
  tile the 400000 rows (row r lies in block r / 8000), so the output array after the call is E·w + b.
-/
import proofs.«117341_j78013785964684_1_alg».proof.Proof.Gen.KernelIdeal.Frame
import proofs.«117341_j78013785964684_1_alg».proof.Proof.Stages
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem
open Cert.KernelIdeal Cert.KernelIdeal.Gen
open Idealize.ShloMosaic.Pipeline (Dat)

namespace Head

theorem hz : (![0, 0] : Fin 2 → Nat) = fun _ => 0 := funext fun a => by fin_cases a <;> rfl

/-! ## The block product's operand indices

For the [8000, 128] × [128, 1] product contracting axis 1 of the left with axis 0 of the right, the left operand is
read at (row of the output, k) and the right at (k, column of the output). -/

theorem lhs_blk_0 (i : S8000x1.Idx) (q : Cert.KernelIdeal.dot_S8000x128_S128x1_S8000x1_1_0_0_1_n_n.contr.Idx) :
    (Cert.KernelIdeal.dot_S8000x128_S128x1_S8000x1_1_0_0_1_n_n.lhsIdx i q 0).val = (i 0).val := by
  unfold DotDims.lhsIdx
  rw [dif_neg (show ¬(0 : Fin S8000x128.rank) ∈ Cert.KernelIdeal.dot_S8000x128_S128x1_S8000x1_1_0_0_1_n_n.lhsBatch by decide), dif_pos (show (0 : Fin S8000x128.rank) ∈ Cert.KernelIdeal.dot_S8000x128_S128x1_S8000x1_1_0_0_1_n_n.lhsNonContracting by decide)]
  rfl
theorem lhs_blk_1 (i : S8000x1.Idx) (q : Cert.KernelIdeal.dot_S8000x128_S128x1_S8000x1_1_0_0_1_n_n.contr.Idx) :
    (Cert.KernelIdeal.dot_S8000x128_S128x1_S8000x1_1_0_0_1_n_n.lhsIdx i q 1).val = (q ⟨0, by decide⟩).val :=
  Cert.KernelIdeal.dot_S8000x128_S128x1_S8000x1_1_0_0_1_n_n.lhsIdx_val_of_single rfl i q
theorem rhs_blk_0 (i : S8000x1.Idx) (q : Cert.KernelIdeal.dot_S8000x128_S128x1_S8000x1_1_0_0_1_n_n.contr.Idx) :
    (Cert.KernelIdeal.dot_S8000x128_S128x1_S8000x1_1_0_0_1_n_n.rhsIdx i q 0).val = (q ⟨0, by decide⟩).val :=
  Cert.KernelIdeal.dot_S8000x128_S128x1_S8000x1_1_0_0_1_n_n.rhsIdx_val_of_single rfl i q
theorem rhs_blk_1 (i : S8000x1.Idx) (q : Cert.KernelIdeal.dot_S8000x128_S128x1_S8000x1_1_0_0_1_n_n.contr.Idx) :
    (Cert.KernelIdeal.dot_S8000x128_S128x1_S8000x1_1_0_0_1_n_n.rhsIdx i q 1).val = (i 1).val := by
  unfold DotDims.rhsIdx
  rw [dif_neg (show ¬(1 : Fin S128x1.rank) ∈ Cert.KernelIdeal.dot_S8000x128_S128x1_S8000x1_1_0_0_1_n_n.rhsBatch by decide), dif_pos (show (1 : Fin S128x1.rank) ∈ Cert.KernelIdeal.dot_S8000x128_S128x1_S8000x1_1_0_0_1_n_n.rhsNonContracting by decide)]
  rfl

/-- Row (y 0), column k of a block of embeddings. -/
abbrev lblk (y : S8000x1.Idx) (k : Fin 128) : S8000x128.Idx := fun a => match a with
  | ⟨0, _⟩ => ⟨(y 0).val, (y 0).isLt⟩
  | ⟨1, _⟩ => ⟨k.val, k.isLt⟩
/-- Row k, column (y 1) of the weight column. -/
abbrev rblk (y : S8000x1.Idx) (k : Fin 128) : S128x1.Idx := fun a => match a with
  | ⟨0, _⟩ => ⟨k.val, k.isLt⟩
  | ⟨1, _⟩ => ⟨(y 1).val, (y 1).isLt⟩
/-- The one entry of a [1, 1] array. -/
abbrev one11 : S1x1.Idx := fun a => match a with
  | ⟨0, _⟩ => ⟨0, Nat.one_pos⟩
  | ⟨1, _⟩ => ⟨0, Nat.one_pos⟩

set_option maxHeartbeats 400000 in
/-- The body's result at an index: narrowing is the identity at the extended reals and the accumulator is zero, so
    the entry is the 128-term sum of products plus the bias's one entry. -/
theorem pay_apply (x0 : Vec Ideal S8000x128 .f32) (x1 : Vec Ideal S128x1 .f32) (x2 : Vec Ideal S1x1 .f32) (y : S8000x1.Idx) :
    k4_pay1 (F := Ideal) x0 x1 x2 y = (∑ k : Fin 128, x0 (lblk y k) * x1 (rblk y k)) + x2 one11 := by
  unfold k4_pay1
  simp only [shapeCast_self]
  rw [ValueIdx.addf_apply]
  refine congrArg₂ (· + ·) ?_ ?_
  · refine (Ideal.matmul_constant_zero_apply _ none _ _ y).trans ?_
    rw [← Equiv.sum_comp (ValueIdx.contrEquiv1 Cert.KernelIdeal.dot_S8000x128_S128x1_S8000x1_1_0_0_1_n_n 128 rfl rfl).symm]
    refine Finset.sum_congr rfl fun k _ => ?_
    have hk := ValueIdx.contrEquiv1_symm_val Cert.KernelIdeal.dot_S8000x128_S128x1_S8000x1_1_0_0_1_n_n 128 rfl rfl k
    have el : Cert.KernelIdeal.dot_S8000x128_S128x1_S8000x1_1_0_0_1_n_n.lhsIdx y ((ValueIdx.contrEquiv1 Cert.KernelIdeal.dot_S8000x128_S128x1_S8000x1_1_0_0_1_n_n 128 rfl rfl).symm k) = lblk y k := funext fun a => Fin.ext (by
      match a with
      | ⟨0, _⟩ => exact lhs_blk_0 _ _
      | ⟨1, _⟩ => exact (lhs_blk_1 _ _).trans hk)
    have er : Cert.KernelIdeal.dot_S8000x128_S128x1_S8000x1_1_0_0_1_n_n.rhsIdx y ((ValueIdx.contrEquiv1 Cert.KernelIdeal.dot_S8000x128_S128x1_S8000x1_1_0_0_1_n_n 128 rfl rfl).symm k) = rblk y k := funext fun a => Fin.ext (by
      match a with
      | ⟨0, _⟩ => exact (rhs_blk_0 _ _).trans hk
      | ⟨1, _⟩ => exact rhs_blk_1 _ _)
    rw [el, er]
    rfl
  · exact broadcastTo_apply x2 broadcasts_S1x1_S8000x1 y one11 (fun a => match a with
      | ⟨0, _⟩ => by show 0 = if (1 : Nat) = 1 then 0 else _; rw [if_pos rfl]
      | ⟨1, _⟩ => by show 0 = if (1 : Nat) = 1 then 0 else _; rw [if_pos rfl])

/-! ## The whole product's operand indices

The same reading for the [400000, 128] × [128, 1] product of the whole arrays. -/

theorem lhs_ref_0 (i : Cert.ReferenceIdeal.S400000x1.Idx) (q : Cert.ReferenceIdeal.dot_S400000x128_S128x1_S400000x1_1_0_0_1_n_n.contr.Idx) :
    (Cert.ReferenceIdeal.dot_S400000x128_S128x1_S400000x1_1_0_0_1_n_n.lhsIdx i q 0).val = (i 0).val := by
  unfold DotDims.lhsIdx
  rw [dif_neg (show ¬(0 : Fin Cert.ReferenceIdeal.S400000x128.rank) ∈ Cert.ReferenceIdeal.dot_S400000x128_S128x1_S400000x1_1_0_0_1_n_n.lhsBatch by decide), dif_pos (show (0 : Fin Cert.ReferenceIdeal.S400000x128.rank) ∈ Cert.ReferenceIdeal.dot_S400000x128_S128x1_S400000x1_1_0_0_1_n_n.lhsNonContracting by decide)]
  rfl
theorem lhs_ref_1 (i : Cert.ReferenceIdeal.S400000x1.Idx) (q : Cert.ReferenceIdeal.dot_S400000x128_S128x1_S400000x1_1_0_0_1_n_n.contr.Idx) :
    (Cert.ReferenceIdeal.dot_S400000x128_S128x1_S400000x1_1_0_0_1_n_n.lhsIdx i q 1).val = (q ⟨0, by decide⟩).val :=
  Cert.ReferenceIdeal.dot_S400000x128_S128x1_S400000x1_1_0_0_1_n_n.lhsIdx_val_of_single rfl i q
theorem rhs_ref_0 (i : Cert.ReferenceIdeal.S400000x1.Idx) (q : Cert.ReferenceIdeal.dot_S400000x128_S128x1_S400000x1_1_0_0_1_n_n.contr.Idx) :
    (Cert.ReferenceIdeal.dot_S400000x128_S128x1_S400000x1_1_0_0_1_n_n.rhsIdx i q 0).val = (q ⟨0, by decide⟩).val :=
  Cert.ReferenceIdeal.dot_S400000x128_S128x1_S400000x1_1_0_0_1_n_n.rhsIdx_val_of_single rfl i q
theorem rhs_ref_1 (i : Cert.ReferenceIdeal.S400000x1.Idx) (q : Cert.ReferenceIdeal.dot_S400000x128_S128x1_S400000x1_1_0_0_1_n_n.contr.Idx) :
    (Cert.ReferenceIdeal.dot_S400000x128_S128x1_S400000x1_1_0_0_1_n_n.rhsIdx i q 1).val = (i 1).val := by
  unfold DotDims.rhsIdx
  rw [dif_neg (show ¬(1 : Fin Cert.ReferenceIdeal.S128x1.rank) ∈ Cert.ReferenceIdeal.dot_S400000x128_S128x1_S400000x1_1_0_0_1_n_n.rhsBatch by decide), dif_pos (show (1 : Fin Cert.ReferenceIdeal.S128x1.rank) ∈ Cert.ReferenceIdeal.dot_S400000x128_S128x1_S400000x1_1_0_0_1_n_n.rhsNonContracting by decide)]
  rfl

/-- Row (i 0), column k of the embeddings. -/
abbrev lref (i : Cert.ReferenceIdeal.S400000x1.Idx) (k : Fin 128) : Cert.ReferenceIdeal.S400000x128.Idx := fun a => match a with
  | ⟨0, _⟩ => ⟨(i 0).val, (i 0).isLt⟩
  | ⟨1, _⟩ => ⟨k.val, k.isLt⟩
/-- Row k, column (i 1) of the weight column. -/
abbrev rref (i : Cert.ReferenceIdeal.S400000x1.Idx) (k : Fin 128) : Cert.ReferenceIdeal.S128x1.Idx := fun a => match a with
  | ⟨0, _⟩ => ⟨k.val, k.isLt⟩
  | ⟨1, _⟩ => ⟨(i 1).val, (i 1).isLt⟩
/-- The one entry of the [1, 1] bias. -/
abbrev one11r : Cert.ReferenceIdeal.S1x1.Idx := fun a => match a with
  | ⟨0, _⟩ => ⟨0, Nat.one_pos⟩
  | ⟨1, _⟩ => ⟨0, Nat.one_pos⟩

set_option maxHeartbeats 400000 in
/-- The whole-array head at an index: the 128-term sum of products of row (i 0) of the embeddings with the weight
    column, plus the bias's one entry. -/
theorem headLin_apply (e : (⟨Cert.ReferenceIdeal.S400000x128, .f32⟩ : BufTy).Contents (Elt Ideal)) (w : (⟨Cert.ReferenceIdeal.S128x1, .f32⟩ : BufTy).Contents (Elt Ideal)) (b : (⟨Cert.ReferenceIdeal.S1x1, .f32⟩ : BufTy).Contents (Elt Ideal)) (i : Cert.ReferenceIdeal.S400000x1.Idx) :
    headLin e w b i = (∑ k : Fin 128, e (lref i k) * w (rref i k)) + b one11r := by
  unfold headLin
  rw [ValueIdx.addf_apply]
  refine congrArg₂ (· + ·) ?_ ?_
  · simp only [Host.dotGeneral]
    rw [Ideal.dotGeneral_apply, ← Equiv.sum_comp (ValueIdx.contrEquiv1 Cert.ReferenceIdeal.dot_S400000x128_S128x1_S400000x1_1_0_0_1_n_n 128 rfl rfl).symm]
    refine Finset.sum_congr rfl fun k _ => ?_
    have hk := ValueIdx.contrEquiv1_symm_val Cert.ReferenceIdeal.dot_S400000x128_S128x1_S400000x1_1_0_0_1_n_n 128 rfl rfl k
    have el : Cert.ReferenceIdeal.dot_S400000x128_S128x1_S400000x1_1_0_0_1_n_n.lhsIdx i ((ValueIdx.contrEquiv1 Cert.ReferenceIdeal.dot_S400000x128_S128x1_S400000x1_1_0_0_1_n_n 128 rfl rfl).symm k) = lref i k := funext fun a => Fin.ext (by
      match a with
      | ⟨0, _⟩ => exact lhs_ref_0 _ _
      | ⟨1, _⟩ => exact (lhs_ref_1 _ _).trans hk)
    have er : Cert.ReferenceIdeal.dot_S400000x128_S128x1_S400000x1_1_0_0_1_n_n.rhsIdx i ((ValueIdx.contrEquiv1 Cert.ReferenceIdeal.dot_S400000x128_S128x1_S400000x1_1_0_0_1_n_n 128 rfl rfl).symm k) = rref i k := funext fun a => Fin.ext (by
      match a with
      | ⟨0, _⟩ => exact (rhs_ref_0 _ _).trans hk
      | ⟨1, _⟩ => exact rhs_ref_1 _ _)
    rw [el, er]
  · exact broadcastInDim_apply _ Cert.ReferenceIdeal.Facts₀.bcast_S1x1_S400000x1_0_1 b i one11r (fun a => match a with
      | ⟨0, _⟩ => by show 0 = if (1 : Nat) = 1 then 0 else (i 0).val; rw [if_pos rfl]
      | ⟨1, _⟩ => by show 0 = if (1 : Nat) = 1 then 0 else (i 1).val; rw [if_pos rfl])

/-! ## From the blocks to the array -/

/-- The index maps over the 50 grid points: the embeddings' block moves with the output's down the rows, at block
    row t; the weight's and the bias's blocks stay at the origin. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

set_option maxHeartbeats 400000 in
/-- What point t writes back is block t of E·w + b of the arrays found on entry: row r of the embeddings' block is
    row 8000 t + r of the array, the weight's and the bias's blocks are the whole arrays, so the two sums agree
    term by term. -/
theorem flushed_eq (V : (c : Dev nD) → (b : Ref sig .tc) → Buf (Elt Ideal) ((c : Thread nD τ).loc b)) (c : Dev nD) (t : Fin cfg4.N) :
    (dat4 (F := Ideal) V c).flushed 3 t = ((cfg4.win 3).blk t).view.read (Elt Ideal) (headLin (V c main_v80) (V c main_arg8) (V c main_v81)) := by
  show (cfg4.win 3).cut (grid4.coords t) ((dat4 (F := Ideal) V c).after 3 t) = _
  rw [after4_3]
  unfold out4_3
  rw [View.canon_unit_zero hz]
  simp only [View.ld_unit_zero (S := S8000x128) hz, View.ld_unit_zero (S := S128x1) hz, View.ld_unit_zero (S := S1x1) hz]
  obtain ⟨e0, e1, e2, e3, e4, e5, e6, e7⟩ := idx_facts t
  funext y
  show k4_pay1 (F := Ideal) (iblk4 V c 0 t) (iblk4 V c 1 t) (iblk4 V c 2 t) y
      = headLin (V c main_v80) (V c main_arg8) (V c main_v81) (((cfg4.win 3).blk t).view.emb y)
  rw [headLin_apply]
  refine (pay_apply _ _ _ y).trans ?_
  refine congrArg₂ (· + ·) (Finset.sum_congr rfl fun k _ => congrArg₂ (· * ·) ?_ ?_) ?_
  · show V c main_v80 (((cfg4.win 0).blk t).view.emb (lblk y k)) = V c main_v80 (lref (((cfg4.win 3).blk t).view.emb y) k)
    refine congrArg _ (funext fun a => Fin.ext ?_)
    match a with
    | ⟨0, _⟩ => show win4_0.index t (0 : Fin 2) * 8000 + 1 * (y 0).val = win4_3.index t (0 : Fin 2) * 8000 + 1 * (y 0).val; omega
    | ⟨1, _⟩ => show win4_0.index t (1 : Fin 2) * 128 + 1 * k.val = k.val; omega
  · show V c main_arg8 (((cfg4.win 1).blk t).view.emb (rblk y k)) = V c main_arg8 (rref (((cfg4.win 3).blk t).view.emb y) k)
    refine congrArg _ (funext fun a => Fin.ext ?_)
    match a with
    | ⟨0, _⟩ => show win4_1.index t (0 : Fin 2) * 128 + 1 * k.val = k.val; omega
    | ⟨1, _⟩ => show win4_1.index t (1 : Fin 2) * 1 + 1 * (y 1).val = win4_3.index t (1 : Fin 2) * 1 + 1 * (y 1).val; omega
  · show V c main_v81 (((cfg4.win 2).blk t).view.emb one11) = V c main_v81 one11r
    refine congrArg _ (funext fun a => Fin.ext ?_)
    match a with
    | ⟨0, _⟩ => show win4_2.index t (0 : Fin 2) * 1 + 1 * 0 = 0; omega
    | ⟨1, _⟩ => show win4_2.index t (1 : Fin 2) * 1 + 1 * 0 = 0; omega

/-- An index of the output array is in point t's block iff each coordinate is in the block's range on its axis. -/
theorem mem_blk (t : Fin cfg4.N) (i : S400000x1.Idx) :
    i ∈ ((cfg4.win 3).blk t).view.set ↔ ∀ a : Fin 2, win4_3.index t a * S8000x1.size a ≤ (i a).val ∧ (i a).val < win4_3.index t a * S8000x1.size a + S8000x1.size a := by
  show i ∈ ((View.whole main_v82).slice (win4_3.rect t)).set ↔ _
  rw [View.set_slice_whole, Rect.mem_set_unit]
  exact Iff.rfl

/-- Row r of the output lies in the block of point r / 8000, and every point writes its block back. -/
theorem cover (i : S400000x1.Idx) : ∃ t : Fin cfg4.N, (cfg4.win 3).flush t = true ∧ i ∈ ((cfg4.win 3).blk t).view.set := by
  have h0 : (i 0).val < 400000 := (i 0).isLt
  have h1 : (i 1).val < 1 := (i 1).isLt
  have hN : cfg4.N = 50 := N_4
  let t : Fin cfg4.N := ⟨(i 0).val / 8000, by rw [hN]; omega⟩
  obtain ⟨e0, e1, e2, e3, e4, e5, e6, e7⟩ := idx_facts t
  have e6' : win4_3.index t (0 : Fin 2) = (i 0).val / 8000 := e6
  refine ⟨t, flush4_3 t, ?_⟩
  rw [mem_blk]
  intro a
  match a with
  | ⟨0, _⟩ => show win4_3.index t (0 : Fin 2) * 8000 ≤ (i 0).val ∧ (i 0).val < win4_3.index t (0 : Fin 2) * 8000 + 8000; omega
  | ⟨1, _⟩ => show win4_3.index t (1 : Fin 2) * 1 ≤ (i 1).val ∧ (i 1).val < win4_3.index t (1 : Fin 2) * 1 + 1; omega

end Head

/-- After the tiled linear head the output array is E·w + b of the arrays found on entry. -/
theorem final_head (V : (c : Dev nD) → (b : Ref sig .tc) → Buf (Elt Ideal) ((c : Thread nD τ).loc b)) (c : Dev nD) :
    (dat4 (F := Ideal) V c).arrAt 3 cfg4.N = headLin (V c main_v80) (V c main_arg8) (V c main_v81) :=
  (dat4 (F := Ideal) V c).arrAt_eq_of_cover 3 (headLin (V c main_v80) (V c main_arg8) (V c main_v81))
    (fun t _ => Head.flushed_eq V c t) Head.cover

end Cert.Bridge

end
-- ==== Proof.KernelValue.lean ====
/-
  The kernel program's result as the reference's last stage of the arguments.
  Walking @main's segment boundaries from the launch: before the first tiled call the host operations leave the
  reference's source, destination and edge-weight vectors; each tiled call leaves in its output array the reference's
  whole-array operation (a dense product, a rectified bias layer, the linear head) of what it found on entry, which
  by then is known to be the reference's earlier stages; each host stretch between two calls is the reference's
  stretch of the same operations. No buffer a later item reads is written in between, so every such fact is carried
  forward unchanged. At the last boundary the result buffer holds the reference's flattened head output.
-/
import proofs.«117341_j78013785964684_1_alg».proof.Proof.Gen.KernelIdeal.Frame
import proofs.«117341_j78013785964684_1_alg».proof.Proof.HostFold
import proofs.«117341_j78013785964684_1_alg».proof.Proof.Dense1
import proofs.«117341_j78013785964684_1_alg».proof.Proof.Bias1
import proofs.«117341_j78013785964684_1_alg».proof.Proof.Dense2
import proofs.«117341_j78013785964684_1_alg».proof.Proof.Bias2
import proofs.«117341_j78013785964684_1_alg».proof.Proof.Head

set_option maxRecDepth 16384

noncomputable section

namespace Cert.Bridge

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)

/-- An array as launched on core `c`. -/
abbrev arg (b : Ref sig .tc) : Buf (Elt Ideal) ((c : Thread nD τ).loc b) := m ((c : Thread nD τ).loc b)

/-! ## Carrying a buffer forward: it holds at a later boundary what it held before the first tiled call -/

theorem back4 (r : Ref sig .tc) (h4 : ∀ w, Pipeline.arrRef spec0 w ≠ r) : W4 m ρ c (Proc.devRef .tc r) = W3 m ρ c (Proc.devRef .tc r) :=
  W4_of_ne m ρ c r h4
theorem back5 (r : Ref sig .tc) (h5 : r ∉ hostOps1_W) (h4 : ∀ w, Pipeline.arrRef spec0 w ≠ r) : W5 m ρ c (Proc.devRef .tc r) = W3 m ρ c (Proc.devRef .tc r) :=
  (hostOps1_keep (W4 m ρ c) r h5).trans (back4 m ρ c r h4)
theorem back6 (r : Ref sig .tc) (h6 : ∀ w, Pipeline.arrRef spec1 w ≠ r) (h5 : r ∉ hostOps1_W) (h4 : ∀ w, Pipeline.arrRef spec0 w ≠ r) :
    W6 m ρ c (Proc.devRef .tc r) = W3 m ρ c (Proc.devRef .tc r) :=
  (W6_of_ne m ρ c r h6).trans (back5 m ρ c r h5 h4)
theorem back7 (r : Ref sig .tc) (h7 : ∀ w, Pipeline.arrRef spec2 w ≠ r) (h6 : ∀ w, Pipeline.arrRef spec1 w ≠ r) (h5 : r ∉ hostOps1_W)
    (h4 : ∀ w, Pipeline.arrRef spec0 w ≠ r) : W7 m ρ c (Proc.devRef .tc r) = W3 m ρ c (Proc.devRef .tc r) :=
  (W7_of_ne m ρ c r h7).trans (back6 m ρ c r h6 h5 h4)
theorem back8 (r : Ref sig .tc) (h8 : r ∉ hostOps3_W) (h7 : ∀ w, Pipeline.arrRef spec2 w ≠ r) (h6 : ∀ w, Pipeline.arrRef spec1 w ≠ r) (h5 : r ∉ hostOps1_W)
    (h4 : ∀ w, Pipeline.arrRef spec0 w ≠ r) : W8 m ρ c (Proc.devRef .tc r) = W3 m ρ c (Proc.devRef .tc r) :=
  (hostOps3_keep (W7 m ρ c) r h8).trans (back7 m ρ c r h7 h6 h5 h4)
theorem back9 (r : Ref sig .tc) (h9 : ∀ w, Pipeline.arrRef spec3 w ≠ r) (h8 : r ∉ hostOps3_W) (h7 : ∀ w, Pipeline.arrRef spec2 w ≠ r) (h6 : ∀ w, Pipeline.arrRef spec1 w ≠ r)
    (h5 : r ∉ hostOps1_W) (h4 : ∀ w, Pipeline.arrRef spec0 w ≠ r) : W9 m ρ c (Proc.devRef .tc r) = W3 m ρ c (Proc.devRef .tc r) :=
  (W9_of_ne m ρ c r h9).trans (back8 m ρ c r h8 h7 h6 h5 h4)
theorem back10 (r : Ref sig .tc) (h10 : r ∉ hostOps4_W) (h9 : ∀ w, Pipeline.arrRef spec3 w ≠ r) (h8 : r ∉ hostOps3_W) (h7 : ∀ w, Pipeline.arrRef spec2 w ≠ r)
    (h6 : ∀ w, Pipeline.arrRef spec1 w ≠ r) (h5 : r ∉ hostOps1_W) (h4 : ∀ w, Pipeline.arrRef spec0 w ≠ r) : W10 m ρ c (Proc.devRef .tc r) = W3 m ρ c (Proc.devRef .tc r) :=
  (hostOps4_keep (W9 m ρ c) r h10).trans (back9 m ρ c r h9 h8 h7 h6 h5 h4)

/-! ## Before the first tiled call -/

/-- An argument no host operation writes holds its launch contents. -/
theorem at3_arg (r : Ref sig .tc) (h0 : r ∉ hostOps0_W) (h1 : r ∉ hostOps0_1_W) (h2 : r ∉ hostOps0_2_W) :
    W3 m ρ c (Proc.devRef .tc r) = arg m c r :=
  graphData_keep (W0 m ρ c) r h0 h1 h2
theorem at3_src : W3 m ρ c (Proc.devRef .tc main_v3) = val_main_v3 (F := Ideal) (arg m c main_arg1) := graphData_src (W0 m ρ c)
theorem at3_dst : W3 m ρ c (Proc.devRef .tc main_v6) = val_main_v6 (F := Ideal) (arg m c main_arg1) := graphData_dst (W0 m ρ c)
theorem at3_wt : W3 m ρ c (Proc.devRef .tc main_v29) = val_main_v30 (F := Ideal) (arg m c main_arg1) := graphData_weight (W0 m ρ c)

/-! ## Layer 1 -/

/-- After the first tiled call: X·W₁. -/
theorem at4_prod : W4 m ρ c (Proc.devRef .tc main_v30) = val_main_v15 (F := Ideal) (arg m c main_arg0) (arg m c main_arg4) :=
  (W4_arr m ρ c 2).trans ((final_dense1 (V3 m ρ) c).trans
    ((congrArg₂ dense1 (at3_arg m ρ c main_arg0 (by decide) (by decide) (by decide)) (at3_arg m ρ c main_arg4 (by decide) (by decide) (by decide))).trans (dense1_stage _ _)))

/-- The aggregated messages of layer 1. -/
theorem at5_agg : W5 m ρ c (Proc.devRef .tc main_v43) = val_main_v43 (F := Ideal) (arg m c main_arg0) (arg m c main_arg1) (arg m c main_arg4) :=
  layer1_agg (W4 m ρ c) _ _ _ (at4_prod m ρ c)
    ((back4 m ρ c main_v3 (by decide)).trans (at3_src m ρ c))
    ((back4 m ρ c main_v6 (by decide)).trans (at3_dst m ρ c))
    ((back4 m ρ c main_v29 (by decide)).trans (at3_wt m ρ c))

theorem at5_bias : W5 m ρ c (Proc.devRef .tc main_v44) = val_main_v44 (F := Ideal) (arg m c main_arg5) :=
  layer1_bias (W4 m ρ c) _ ((back4 m ρ c main_arg5 (by decide)).trans (at3_arg m ρ c main_arg5 (by decide) (by decide) (by decide)))

/-- After the second tiled call: H₁ = max(agg + b₁, 0). -/
theorem at6_hidden : W6 m ρ c (Proc.devRef .tc main_v45) = val_main_v47 (F := Ideal) (arg m c main_arg0) (arg m c main_arg1) (arg m c main_arg4) (arg m c main_arg5) :=
  (W6_arr m ρ c 2).trans ((final_bias1 (V5 m ρ) c).trans
    ((congrArg₂ biasRelu (at5_agg m ρ c) (at5_bias m ρ c)).trans (bias1_stage _ _ _ _)))

/-! ## Layer 2 -/

/-- After the third tiled call: H₁·W₂. -/
theorem at7_prod : W7 m ρ c (Proc.devRef .tc main_v46) = val_main_v48 (F := Ideal) (arg m c main_arg0) (arg m c main_arg1) (arg m c main_arg4) (arg m c main_arg5) (arg m c main_arg6) :=
  (W7_arr m ρ c 2).trans ((final_dense2 (V6 m ρ) c).trans
    ((congrArg₂ dense2 (at6_hidden m ρ c)
      ((back6 m ρ c main_arg6 (by decide) (by decide) (by decide)).trans (at3_arg m ρ c main_arg6 (by decide) (by decide) (by decide)))).trans (dense2_stage _ _ _ _ _)))

theorem at8_agg : W8 m ρ c (Proc.devRef .tc main_v59) = val_main_v76 (F := Ideal) (arg m c main_arg0) (arg m c main_arg1) (arg m c main_arg4) (arg m c main_arg5) (arg m c main_arg6) :=
  layer2_agg (W7 m ρ c) _ _ _ _ _ (at7_prod m ρ c)
    ((back7 m ρ c main_v3 (by decide) (by decide) (by decide) (by decide)).trans (at3_src m ρ c))
    ((back7 m ρ c main_v6 (by decide) (by decide) (by decide) (by decide)).trans (at3_dst m ρ c))
    ((back7 m ρ c main_v29 (by decide) (by decide) (by decide) (by decide)).trans (at3_wt m ρ c))

theorem at8_bias : W8 m ρ c (Proc.devRef .tc main_v60) = val_main_v77 (F := Ideal) (arg m c main_arg7) :=
  layer2_bias (W7 m ρ c) _ ((back7 m ρ c main_arg7 (by decide) (by decide) (by decide) (by decide)).trans (at3_arg m ρ c main_arg7 (by decide) (by decide) (by decide)))

/-- After the fourth tiled call: H₂ = max(agg + b₂, 0). -/
theorem at9_hidden : W9 m ρ c (Proc.devRef .tc main_v61) = val_main_v80 (F := Ideal) (arg m c main_arg0) (arg m c main_arg1) (arg m c main_arg4) (arg m c main_arg5) (arg m c main_arg6) (arg m c main_arg7) :=
  (W9_arr m ρ c 2).trans ((final_bias2 (V8 m ρ) c).trans
    ((congrArg₂ biasRelu (at8_agg m ρ c) (at8_bias m ρ c)).trans (bias2_stage _ _ _ _ _ _)))

/-! ## The head -/

theorem at10_emb : W10 m ρ c (Proc.devRef .tc main_v80) = val_main_v99 (F := Ideal) (arg m c main_arg0) (arg m c main_arg1) (arg m c main_arg3) (arg m c main_arg4) (arg m c main_arg5) (arg m c main_arg6) (arg m c main_arg7) :=
  pair_emb (W9 m ρ c) _ _ _ _ _ _ _ (at9_hidden m ρ c)
    ((back9 m ρ c main_arg3 (by decide) (by decide) (by decide) (by decide) (by decide) (by decide)).trans (at3_arg m ρ c main_arg3 (by decide) (by decide) (by decide)))

theorem at10_bias : W10 m ρ c (Proc.devRef .tc main_v81) = val_main_v101 (F := Ideal) (arg m c main_arg9) :=
  head_bias (W9 m ρ c) _ ((back9 m ρ c main_arg9 (by decide) (by decide) (by decide) (by decide) (by decide) (by decide)).trans (at3_arg m ρ c main_arg9 (by decide) (by decide) (by decide)))

/-- After the fifth tiled call: E·w_h + b_h. -/
theorem at11_col : W11 m ρ c (Proc.devRef .tc main_v82) = val_main_v103 (F := Ideal) (arg m c main_arg0) (arg m c main_arg1) (arg m c main_arg3) (arg m c main_arg4) (arg m c main_arg5) (arg m c main_arg6) (arg m c main_arg7) (arg m c main_arg8) (arg m c main_arg9) :=
  (W11_arr m ρ c 3).trans ((final_head (V10 m ρ) c).trans
    ((congr (congrArg₂ headLin (at10_emb m ρ c)
      ((back10 m ρ c main_arg8 (by decide) (by decide) (by decide) (by decide) (by decide) (by decide) (by decide)).trans (at3_arg m ρ c main_arg8 (by decide) (by decide) (by decide)))) (at10_bias m ρ c)).trans
      (head_stage _ _ _ _ _ _ _ _ _)))

/-- THE RESULT: at the last boundary the result buffer holds the reference's last stage of the launch arguments. -/
theorem result_eq : W12 m ρ c (Proc.devRef .tc main_v83) = val_main_v104 (F := Ideal) (arg m c main_arg0) (arg m c main_arg1) (arg m c main_arg3) (arg m c main_arg4) (arg m c main_arg5) (arg m c main_arg6) (arg m c main_arg7) (arg m c main_arg8) (arg m c main_arg9) :=
  result_flat (W11 m ρ c) _ _ _ _ _ _ _ _ _ (at11_col m ρ c)

end Cert.Bridge

end
-- ==== Proof.lean ====
/-
  The certificate's claims for a two-layer graph convolution with a pairwise linear head.
  Kernel program and reference compute, over the extended reals, the same composition: the self-looped graph's
  normalised aggregation of X·W₁, a rectified bias layer, the same aggregation of H₁·W₂, a second rectified bias
  layer, the two gathered rows of H₂ per pair joined, and the linear head. The kernel program tiles the two dense
  products, the two bias layers and the head over row blocks; each tiled call's output array is the reference's
  whole-array operation of its inputs (a row of the output depends only on the same row of the row-tiled input, and
  the weights and biases are read whole at every block), and the host operations in between are the reference's own.
  So the kernel program's result is the reference's last stage of the launch arguments (Proof/KernelValue.lean), which
  is what the reference's run ends with. The three frames are the generated ones (the reference's: its run with the
  result dropped); the idealization rewrote nothing, so there is nothing to preserve.
-/
import proofs.«117341_j78013785964684_1_alg».proof.Defs
import proofs.«117341_j78013785964684_1_alg».proof.Proof.Gen.Kernel
import proofs.«117341_j78013785964684_1_alg».proof.Proof.Gen.Kernel.Frame
import proofs.«117341_j78013785964684_1_alg».proof.Proof.Gen.KernelIdeal
import proofs.«117341_j78013785964684_1_alg».proof.Proof.Gen.KernelIdeal.Frame
import proofs.«117341_j78013785964684_1_alg».proof.Proof.Gen.ReferenceIdeal
import proofs.«117341_j78013785964684_1_alg».proof.Proof.Gen.Pre_finite_inputs
import proofs.«117341_j78013785964684_1_alg».proof.Proof.KernelRun
import proofs.«117341_j78013785964684_1_alg».proof.Proof.KernelValue
import proofs.«117341_j78013785964684_1_alg».proof.Proof.RefRun
import proofs.«117341_j78013785964684_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the reference's last stage of the (agreeing) arguments in their result buffers. -/
theorem algebraic : Cert.algebraic_KernelIdeal_ReferenceIdeal := by
  intro m ρ m' ρ' _ hagree
  refine ⟨fun c => Cert.KernelIdeal.Gen.W12 m ρ c (Proc.devRef .tc Cert.KernelIdeal.main_v83),
    Cert.KernelIdeal.Gen.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  refine (Cert.ReferenceIdeal.ReadP.val_main_v104_eq m' c).trans ?_
  rw [h0, h1, h3, h4, h5, h6, h7, h8, h9]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
